-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S524288x64 : Shape := ⟨2, ![524288, 64]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_

variable [Facts]

def fn {F : FTy → Type} [FloatOps F] (main_arg0 : FVec F S128x64 .f32) (main_arg1 : FVec F S524288x64 .f32) (main_arg2 : FVec F S524288x64 .f32) : IVec S_ 1 :=
  let main_v0 : FVec F S128x64 .f32 := Host.absf main_arg0
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S524288x64 .f32 := Host.absf main_arg1
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_v9 : FVec F S524288x64 .f32 := Host.absf main_arg2
  let main_cst_2 : FVec F S_ .f32 := constant S_ .f32 0x7F800000#32
  let main_v10 : FVec F S524288x64 .f32 := broadcastInDim S524288x64 ![] bcast_S_S524288x64 main_cst_2
  let main_v11 : IVec S524288x64 1 := cmpf .olt main_v9 main_v10
  let main_c_3 : IVec S_ 1 := constantI S_ 1 1#1
  let main_v12 : IVec S_ 1 := (fun x v => Host.reduce IntOp.andi x v reducesTo_S524288x64_S_d0_1 h_S_) main_v11 main_c_3
  let main_v13 : IVec S_ 1 := andi main_v8 main_v12
  main_v13
-- ==== Kernel.lean ====
abbrev S128x64 : Shape := ⟨2, ![128, 64]⟩
abbrev S524288x64 : Shape := ⟨2, ![524288, 64]⟩
abbrev S64x524288 : Shape := ⟨2, ![64, 524288]⟩
abbrev S64x32768 : Shape := ⟨2, ![64, 32768]⟩
abbrev S128x128 : Shape := ⟨2, ![128, 128]⟩
abbrev S128x32768 : Shape := ⟨2, ![128, 32768]⟩
abbrev S128 : Shape := ⟨1, ![128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S128x64, .f32⟩
  | .hbm, ⟨1, _⟩ => ⟨S524288x64, .f32⟩
  | .hbm, ⟨2, _⟩ => ⟨S524288x64, .f32⟩
  | .hbm, ⟨3, _⟩ => ⟨S64x524288, .f32⟩
  | .hbm, ⟨4, _⟩ => ⟨S64x524288, .f32⟩
  | .hbm, ⟨5, _⟩ => ⟨S128x64, .f32⟩
  | .local _ .vmem, ⟨0, _⟩ => ⟨S128x64, .f32⟩
  | .local _ .vmem, ⟨1, _⟩ => ⟨S64x32768, .f32⟩
  | .local _ .vmem, ⟨2, _⟩ => ⟨S64x32768, .f32⟩
  | .local _ .vmem, ⟨3, _⟩ => ⟨S64x32768, .f32⟩
  | .local _ .vmem, ⟨4, _⟩ => ⟨S64x32768, .f32⟩
  | .local _ .vmem, ⟨5, _⟩ => ⟨S128x64, .f32⟩
  | .local _ .vmem, ⟨6, _⟩ => ⟨S128x128, .f32⟩
  | .local _ .vmem, ⟨7, _⟩ => ⟨S128x128, .f32⟩
  | .local _ .vmem, ⟨8, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v45 : BitVec 1 := Scalar.cmpi .eq arg0 c15_i32
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S524288x64_S64x524288_1_0 : S524288x64.Transposes [1, 0] S64x524288
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  reduces_S128x32768_S128 : S128x32768.Reduces [1] S128
  shapeCasts_S128_S128x1 : S128.ShapeCasts S128x1
  broadcasts_S128x1_S128x128 : S128x1.Broadcasts S128x128
  slices_S128x128_o0_0_S128x1 : S128x128.Slices ![0, 0] S128x1
  broadcasts_S128x1_S128x32768 : S128x1.Broadcasts S128x32768
  broadcasts_S128x1_S128x64 : S128x1.Broadcasts S128x64
  dot_S128x64_S64x32768_S128x32768_1_0_0_1_n_n_wf : DotDims.WF S128x64 S64x32768 S128x32768 [1] [0] [0] [1] [] []
  dot_S128x32768_S64x32768_S128x64_1_1_0_0_n_n_wf : DotDims.WF S128x32768 S64x32768 S128x64 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S128x64.size a
  hwx0_0 : ∀ i : grid0.Coords, EltTy.bits .f32 = 32 ∨ (Rect.block (s := S128x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32768.size a ≤ S64x524288.size a
  hwx0_1 : ∀ i : grid0.Coords, EltTy.bits .f32 = 32 ∨ (Rect.block (s := S64x524288) S64x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x32768.size a ≤ S64x524288.size a
  hwx0_2 : ∀ i : grid0.Coords, EltTy.bits .f32 = 32 ∨ (Rect.block (s := S64x524288) S64x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)

variable [Facts₀]

def dot_S128x64_S64x32768_S128x32768_1_0_0_1_n_n : DotDims S128x64 S64x32768 S128x32768 where
  lhsContracting := [1]
  rhsContracting := [0]
  lhsNonContracting := [0]
  rhsNonContracting := [1]
  lhsBatch := []
  rhsBatch := []
  wf := dot_S128x64_S64x32768_S128x32768_1_0_0_1_n_n_wf
def dot_S128x32768_S64x32768_S128x64_1_1_0_0_n_n : DotDims S128x32768 S64x32768 S128x64 where
  lhsContracting := [1]
  rhsContracting := [1]
  lhsNonContracting := [0]
  rhsNonContracting := [0]
  lhsBatch := []
  rhsBatch := []
  wf := dot_S128x32768_S64x32768_S128x64_1_1_0_0_n_n_wf

abbrev win0_0 : Pipeline.Window sig grid0 :=
  Pipeline.Window.ofSpec (Memref.whole main_arg0) S128x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x64 : Shape := ⟨2, ![128, 64]⟩
abbrev S524288x64 : Shape := ⟨2, ![524288, 64]⟩
abbrev S64x524288 : Shape := ⟨2, ![64, 524288]⟩
abbrev S128x524288 : Shape := ⟨2, ![128, 524288]⟩
abbrev S_ : Shape := ⟨0, ![]⟩
abbrev S128 : Shape := ⟨1, ![128]⟩
abbrev S128x1 : Shape := ⟨2, ![128, 1]⟩

abbrev nBuf : Space → Nat
  | .hbm => 23
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S524288x64, .f32⟩
  | .hbm, ⟨2, _⟩ => ⟨S524288x64, .f32⟩
  | .hbm, ⟨3, _⟩ => ⟨S64x524288, .f32⟩
  | .hbm, ⟨4, _⟩ => ⟨S128x524288, .f32⟩
  | .hbm, ⟨5, _⟩ => ⟨S_, .f32⟩
  | .hbm, ⟨6, _⟩ => ⟨S128x524288, .f32⟩
  | .hbm, ⟨7, _⟩ => ⟨S128x524288, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128x1, .f32⟩
  | .hbm, ⟨14, _⟩ => ⟨S128x524288, .f32⟩
  | .hbm, ⟨15, _⟩ => ⟨S128x524288, .f32⟩
  | .hbm, ⟨16, _⟩ => ⟨S128x524288, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S128x524288, .f32⟩
  | .hbm, ⟨21, _⟩ => ⟨S128x524288, .f32⟩
  | .hbm, ⟨22, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S524288x64_S64x524288_1_0 : S524288x64.Transposes [1, 0] S64x524288
  bcast_S_S128x524288 : S_.BroadcastsInDim S128x524288 (![] : Fin 0 → Fin S128x524288.rank)
  reducesTo_S128x524288_S128_d1 : S128x524288.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x524288_0_1 : S128x1.BroadcastsInDim S128x524288 (![0, 1] : Fin 2 → Fin S128x524288.rank)
  dot_S128x64_S64x524288_S128x524288_1_0_0_1_n_n_wf : DotDims.WF S128x64 S64x524288 S128x524288 [1] [0] [0] [1] [] []
  dot_S128x524288_S524288x64_S128x64_1_0_0_1_n_n_wf : DotDims.WF S128x524288 S524288x64 S128x64 [1] [0] [0] [1] [] []

variable [Facts₀]

def dot_S128x64_S64x524288_S128x524288_1_0_0_1_n_n : DotDims S128x64 S64x524288 S128x524288 where
  lhsContracting := [1]
  rhsContracting := [0]
  lhsNonContracting := [0]
  rhsNonContracting := [1]
  lhsBatch := []
  rhsBatch := []
  wf := dot_S128x64_S64x524288_S128x524288_1_0_0_1_n_n_wf
def dot_S128x524288_S524288x64_S128x64_1_0_0_1_n_n : DotDims S128x524288 S524288x64 S128x64 where
  lhsContracting := [1]
  rhsContracting := [0]
  lhsNonContracting := [0]
  rhsNonContracting := [1]
  lhsBatch := []
  rhsBatch := []
  wf := dot_S128x524288_S524288x64_S128x64_1_0_0_1_n_n_wf

class Facts : Prop extends Facts₀ where

variable [Facts]
-- ==== Proof.SoftmaxReal.lean ====
/-
  The softmax-weighted average at a reference point, over the reals.

  For scores `s : ι → ℝ`, values `v : ι → ℝ` and a reference point `c : ℝ` write
  `Z s c S = ∑ j ∈ S, exp (s j - c)` (the partition sum over `S`) and
  `W s v c S = ∑ j ∈ S, exp (s j - c) * v j` (the weighted sum).  Moving the reference point from `c` to `c'`
  multiplies both by `exp (c - c')`; both are additive over disjoint unions; so the quotient `W / Z`
  does not depend on `c`.  That is all an online softmax uses: its running maximum is one admissible
  reference point among others.
-/
import Mathlib.Analysis.SpecialFunctions.Exp
import Mathlib.Algebra.BigOperators.Intervals
import Mathlib.Algebra.BigOperators.Field

namespace Softmax

open Finset

variable {ι : Type*}

/-- The partition sum over `S` at the reference point `c`. -/
noncomputable def Z (s : ι → ℝ) (c : ℝ) (S : Finset ι) : ℝ := ∑ j ∈ S, Real.exp (s j - c)

/-- The weighted sum over `S` at the reference point `c`. -/
noncomputable def W (s v : ι → ℝ) (c : ℝ) (S : Finset ι) : ℝ := ∑ j ∈ S, Real.exp (s j - c) * v j

/-- Moving the reference point rescales the partition sum. -/
theorem Z_shift (s : ι → ℝ) (c c' : ℝ) (S : Finset ι) : Z s c' S = Z s c S * Real.exp (c - c') := by
  unfold Z
  rw [Finset.sum_mul]
  refine Finset.sum_congr rfl fun j _ => ?_
  rw [← Real.exp_add]
  have h : s j - c' = s j - c + (c - c') := by ring
  rw [h]

/-- Moving the reference point rescales the weighted sum by the same factor. -/
theorem W_shift (s v : ι → ℝ) (c c' : ℝ) (S : Finset ι) : W s v c' S = W s v c S * Real.exp (c - c') := by
  unfold W
  rw [Finset.sum_mul]
  refine Finset.sum_congr rfl fun j _ => ?_
  rw [mul_right_comm, ← Real.exp_add]
  have h : s j - c' = s j - c + (c - c') := by ring
  rw [h]

/-- Over a nonempty set the partition sum is positive. -/
theorem Z_pos (s : ι → ℝ) (c : ℝ) {S : Finset ι} (h : S.Nonempty) : 0 < Z s c S := by
  unfold Z
  exact Finset.sum_pos (fun j _ => Real.exp_pos _) h

/-- The weighted average does not depend on the reference point. -/
theorem ratio_indep (s v : ι → ℝ) (c c' : ℝ) {S : Finset ι} (h : S.Nonempty) :
    W s v c S / Z s c S = W s v c' S / Z s c' S := by
  rw [Z_shift s c c' S, W_shift s v c c' S]
  rw [mul_div_mul_right _ _ (ne_of_gt (Real.exp_pos (c - c')))]

/-- One step of the online recurrence for the partition sum: the prefix of length `n` rescaled to the new
    reference point, plus the next `B` terms at the new reference point. -/
theorem Z_range_add (s : ℕ → ℝ) (c c' : ℝ) (n B : ℕ) :
    Z s c' (range (n + B)) = Z s c (range n) * Real.exp (c - c') + ∑ i : Fin B, Real.exp (s (n + i.val) - c') := by
  rw [← Z_shift s c c' (range n)]
  unfold Z
  rw [Finset.sum_range_add]
  congr 1
  exact Finset.sum_range (fun x => Real.exp (s (n + x) - c'))

/-- The same step for the weighted sum. -/
theorem W_range_add (s v : ℕ → ℝ) (c c' : ℝ) (n B : ℕ) :
    W s v c' (range (n + B)) = W s v c (range n) * Real.exp (c - c')
      + ∑ i : Fin B, Real.exp (s (n + i.val) - c') * v (n + i.val) := by
  rw [← W_shift s v c c' (range n)]
  unfold W
  rw [Finset.sum_range_add]
  congr 1
  exact Finset.sum_range (fun x => Real.exp (s (n + x) - c') * v (n + x))

/-- The first block: nothing to rescale. -/
theorem Z_range_first (s : ℕ → ℝ) (c' : ℝ) (B : ℕ) :
    Z s c' (range B) = ∑ i : Fin B, Real.exp (s i.val - c') := by
  unfold Z
  exact Finset.sum_range (fun x => Real.exp (s x - c'))

theorem W_range_first (s v : ℕ → ℝ) (c' : ℝ) (B : ℕ) :
    W s v c' (range B) = ∑ i : Fin B, Real.exp (s i.val - c') * v i.val := by
  unfold W
  exact Finset.sum_range (fun x => Real.exp (s x - c') * v x)

/-- Normalising each weight first and then averaging (a softmax followed by a matrix product) is the same
    weighted average. -/
theorem normalised_sum (s v : ℕ → ℝ) (c : ℝ) (N : ℕ) (hN : 0 < N) :
    ∑ j : Fin N, (Real.exp (s j.val - c) / (∑ k : Fin N, Real.exp (s k.val - c))) * v j.val
      = W s v 0 (range N) / Z s 0 (range N) := by
  have hne : (range N).Nonempty := ⟨0, mem_range.mpr hN⟩
  rw [← ratio_indep s v c 0 hne, W_range_first, Z_range_first, Finset.sum_div]
  refine Finset.sum_congr rfl fun j _ => ?_
  rw [div_mul_eq_mul_div]

end Softmax
-- ==== Proof.Spec.lean ====
/-
  The specification: associative recall by softmax attention, over the reals.

  For a query row `b`, the score of memory row `n` is the inner product of the query with key `n`; the
  result's entry `(b, d)` is the softmax-weighted average of the values' column `d`,
  `(∑ n, exp (score b n) * value n d) / (∑ n, exp (score b n))`, written at the reference point `0`.
  Both programs are shown to end at this one array of extended reals when every input entry is a real number.
-/
import Idealize.ShloMosaic.PureOps.Ideal
import Idealize.ShloMosaic.Lib.ValueIdx
import proofs.«110733_g83365315215904_cont_9to1c4b_190_33_alg».proof.Proof.SoftmaxReal

noncomputable section

namespace Recall

open Idealize.ShloMosaic Idealize.ShloMosaic.ValueIdx

/-- Every entry of an array of extended reals is a real number. -/
def IsReal {ι : Type} (a : ι → EReal) : Prop := ∀ i, a i = (((a i).toReal : ℝ) : EReal)

/-- Indices of the query array (and of the result). -/
abbrev QIdx := (⟨2, ![128, 64]⟩ : Shape).Idx
/-- Indices of the key and value arrays. -/
abbrev MIdx := (⟨2, ![524288, 64]⟩ : Shape).Idx

/-- The score of query row `b` against memory row `n` (zero past the end of the bank). -/
def rowscore (x : QIdx → EReal) (k : MIdx → EReal) (b : Fin 128) (n : ℕ) : ℝ :=
  if h : n < 524288 then ∑ d : Fin 64, (x (ix2 b d)).toReal * (k (ix2 (⟨n, h⟩ : Fin 524288) d)).toReal else 0

/-- Column `d` of the values, by memory row (zero past the end of the bank). -/
def rowval (v : MIdx → EReal) (d : Fin 64) (n : ℕ) : ℝ :=
  if h : n < 524288 then (v (ix2 (⟨n, h⟩ : Fin 524288) d)).toReal else 0

/-- The recalled value: the softmax-weighted average of column `d` for query row `b`. -/
def recall (x : QIdx → EReal) (k v : MIdx → EReal) (b : Fin 128) (d : Fin 64) : ℝ :=
  Softmax.W (rowscore x k b) (rowval v d) 0 (Finset.range 524288) / Softmax.Z (rowscore x k b) 0 (Finset.range 524288)

/-- The result array, as extended reals. -/
def G (x : QIdx → EReal) (k v : MIdx → EReal) : QIdx → EReal :=
  fun i => ((recall x k v ⟨(i 0).val, idx2_lt0 i⟩ ⟨(i 1).val, idx2_lt1 i⟩ : ℝ) : EReal)

theorem G_ix2 (x : QIdx → EReal) (k v : MIdx → EReal) (b : Fin 128) (d : Fin 64) :
    G x k v (ix2 b d) = ((recall x k v b d : ℝ) : EReal) := rfl

end Recall

end
-- ==== Proof.Finite.lean ====
/-
  The precondition says every entry of the three inputs has absolute value below `+∞`; on the extended reals that
  is: every entry is a real number.
-/
import proofs.«110733_g83365315215904_cont_9to1c4b_190_33_alg».proof.Pre_finite_inputs
import proofs.«110733_g83365315215904_cont_9to1c4b_190_33_alg».proof.Proof.Spec
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

variable [Cert.Pre_finite_inputs.Facts]

/-- A one-bit word built from a Boolean is 1 exactly when the Boolean is true. -/
private theorem ofBool_eq_one_iff (b : Bool) : BitVec.ofBool b = 1#1 ↔ b = true := by cases b <;> simp

/-- The pattern `0x7F800000` denotes `+∞`. -/
theorem ofBits_inf : FloatOps.ofBits (F := Ideal) .f32 0x7F800000#32 = (⊤ : EReal) := by
  simp [Ideal.ofBits, Ideal.ieee]

/-- An extended real whose absolute value is below `+∞` is a real number: it is neither `⊤` (whose absolute value
    is `⊤`) nor `⊥` (whose negation is `⊤`). -/
theorem eq_coe_toReal_of_abs_lt_top (a : EReal) (h : max a (-a) < ⊤) : a = ((a.toReal : ℝ) : EReal) := by
  have h1 : a ≠ ⊤ := by rintro rfl; simp at h
  have h2 : a ≠ ⊥ := by rintro rfl; simp at h
  exact (EReal.coe_toReal h1 h2).symm

/-- For an array of any shape: if the all-reduce by `and` of the entrywise comparison `|x| < +∞` is 1, every
    entry of `x` is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
      (cmpf .olt (Host.absf x) (broadcastInDim s ![] hb (constant (F := Ideal) S_ .f32 0x7F800000#32)))
      (constantI S_ 1 1#1) hr hu ix0 = 1#1) :
    Recall.IsReal x := by
  intro i
  -- the scalar shape has one index, so the reduce is over every entry; the comparison at the entry `i` is 1
  haveI : Subsingleton S_.Idx := ⟨fun _ _ => funext fun d => d.elim0⟩
  have hi := Host.reduce_andi_all _ _ hr hu _ e i
  refine eq_coe_toReal_of_abs_lt_top _ ?_
  -- the entry of the splat is `⊤`, the absolute value is `max (x i) (-x i)`, the comparison is the order's
  have h1 : Ideal.cmp .olt (max (x i) (-(x i))) ⊤ = 1#1 := by
    rw [← ofBits_inf]; exact hi
  unfold Ideal.cmp at h1
  exact of_decide_eq_true ((ofBool_eq_one_iff _).1 h1)

/-- From the printed precondition to "every entry is a real", for the three arrays at once. -/
theorem isReal_of_pre (x0 : FVec Ideal S128x64 .f32) (x1 x2 : FVec Ideal S524288x64 .f32)
    (h : Cert.Pre_finite_inputs.fn (F := Ideal) x0 x1 x2 = fun _ => 1#1) :
    Recall.IsReal x0 ∧ Recall.IsReal x1 ∧ Recall.IsReal x2 := by
  -- the one entry of the result, with the chain of operations in view
  have h0 := congrFun h ix0
  dsimp only [Cert.Pre_finite_inputs.fn, Idealize.ShloMosaic.andi] at h0
  -- the conjunction of the three all-reduces
  obtain ⟨h01, e2⟩ := IntOp.andi_eq_one.1 h0
  obtain ⟨e0, e1⟩ := IntOp.andi_eq_one.1 h01
  exact ⟨isReal_of_all x0 _ _ _ e0, isReal_of_all x1 _ _ _ e1, isReal_of_all x2 _ _ _ e2⟩

end Cert.Pre_finite_inputs.Finite

end
-- ==== Proof.IdealReal.lean ====
/-
  The ideal instance's operations on entries that are real numbers: the exponential, the quotient, finite sums
  and a nonempty running maximum of reals are again (coercions of) reals.
-/
import Idealize.ShloMosaic.PureOps.Ideal
import Idealize.ShloMosaic.PureOps.Ideal.Laws
import Mathlib.Analysis.SpecialFunctions.Exp

noncomputable section

namespace IdealReal

open Idealize.ShloMosaic

/-- The coercion of a finite sum of reals is the sum of the coercions. -/
theorem coe_sum {ι : Type*} (S : Finset ι) (f : ι → ℝ) :
    ((∑ j ∈ S, f j : ℝ) : EReal) = ∑ j ∈ S, (f j : EReal) := by
  induction S using Finset.cons_induction with
  | empty => simp
  | cons a s ha ih => rw [Finset.sum_cons, Finset.sum_cons, EReal.coe_add, ih]

/-- Over any finite index set, the running maximum from `-∞` of real entries is `-∞` on the empty set
    and a real number otherwise. -/
theorem fold_max_aux {ι : Type*} (S : Finset ι) (f : ι → ℝ) :
    (S = ∅ ∧ S.fold max (⊥ : EReal) (fun k => (f k : EReal)) = ⊥) ∨
      ∃ r : ℝ, S.fold max (⊥ : EReal) (fun k => (f k : EReal)) = (r : EReal) := by
  induction S using Finset.cons_induction with
  | empty => exact Or.inl ⟨rfl, Finset.fold_empty⟩
  | cons a s ha ih =>
    right
    rw [Finset.fold_cons]
    rcases ih with ⟨_, h⟩ | ⟨r, h⟩
    · exact ⟨f a, by rw [h, max_bot_right]⟩
    · exact ⟨max (f a) r, by rw [h]; exact (EReal.coe_strictMono.monotone.map_max).symm⟩

/-- The maximum of `-∞` and finitely many (at least one) real numbers is a real number. -/
theorem fold_max_real {n : ℕ} (hn : 0 < n) (f : Fin n → ℝ) :
    ∃ r : ℝ, (Finset.univ : Finset (Fin n)).fold max (⊥ : EReal) (fun k => (f k : EReal)) = (r : EReal) := by
  rcases fold_max_aux (Finset.univ : Finset (Fin n)) f with ⟨h, _⟩ | h
  · exact absurd h (Finset.univ_nonempty_iff.mpr ⟨⟨0, hn⟩⟩).ne_empty
  · exact h

/-- The quotient of two reals by a nonzero divisor, at the ideal instance, is the real quotient. -/
theorem div_coe_coe (a b : ℝ) (hb : b ≠ 0) : Ideal.div (a : EReal) (b : EReal) = ((a / b : ℝ) : EReal) := by
  rw [Ideal.div_coe hb, ← EReal.coe_mul, mul_one_div]

/-- The f32 pattern of `-∞` denotes the bottom element. -/
theorem ofBits_neg_inf : Ideal.ofBits .f32 0xFF800000#32 = (⊥ : EReal) := by
  simp [Ideal.ofBits, Ideal.ieee]

/-- The f32 pattern of `1.0` denotes `1`. -/
theorem ofBits_one : Ideal.ofBits .f32 0x3F800000#32 = (1 : EReal) := by
  simp [Ideal.ofBits, Ideal.ieee, -EReal.coe_mul]
  norm_num

end IdealReal

end
-- ==== Proof.RefValue.lean ====
/-
  The reference at the ideal instance is the specification: its scores are the inner products (the factor `1`
  changes nothing), its row maximum is some real number `M`, its weights are `exp (score - M)` over their sum, and a
  normalised weighted sum is the weighted average at any reference point.
-/
import proofs.«110733_g83365315215904_cont_9to1c4b_190_33_alg».proof.Proof.Gen.ReferenceIdeal.Read
import proofs.«110733_g83365315215904_cont_9to1c4b_190_33_alg».proof.Proof.Spec
import proofs.«110733_g83365315215904_cont_9to1c4b_190_33_alg».proof.Proof.IdealReal
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-! ### Indices -/

theorem lidx15 (b : Fin 128) (d : Fin 64) (k : Fin 524288) : lidx_main_v15 (ix2 b d) k = ix2 b k :=
  funext fun a => Fin.ext (by match a with | ⟨0, _⟩ => rfl | ⟨1, _⟩ => rfl)

theorem ridx15 (b : Fin 128) (d : Fin 64) (k : Fin 524288) : ridx_main_v15 (ix2 b d) k = ix2 k d :=
  funext fun a => Fin.ext (by match a with | ⟨0, _⟩ => rfl | ⟨1, _⟩ => rfl)

theorem lidx1 (b : Fin 128) (k : Fin 524288) (d : Fin 64) : lidx_main_v1 (ix2 b k) d = ix2 b d :=
  funext fun a => Fin.ext (by match a with | ⟨0, _⟩ => rfl | ⟨1, _⟩ => rfl)

theorem ridx1 (b : Fin 128) (k : Fin 524288) (d : Fin 64) : ridx_main_v1 (ix2 b k) d = ix2 d k :=
  funext fun a => Fin.ext (by match a with | ⟨0, _⟩ => rfl | ⟨1, _⟩ => rfl)

theorem idx0 (d : Fin 64) (k : Fin 524288) : idx_main_v0 (ix2 d k) = ix2 k d :=
  funext fun a => Fin.ext (by match a with | ⟨0, _⟩ => rfl | ⟨1, _⟩ => rfl)

theorem idx8 (b : Fin 128) (k : Fin 524288) : idx_main_v7 (idx_main_v8 (ix2 b k)) = ix1 b :=
  funext fun a => Fin.ext (by match a with | ⟨0, _⟩ => rfl)

theorem idx13 (b : Fin 128) (k : Fin 524288) : idx_main_v12 (idx_main_v13 (ix2 b k)) = ix1 b :=
  funext fun a => Fin.ext (by match a with | ⟨0, _⟩ => rfl)

theorem idx11 (b : Fin 128) (k : Fin 524288) : idx_main_v11 (ix1 b) k = ix2 b k :=
  funext fun a => Fin.ext (by match a with | ⟨0, _⟩ => rfl | ⟨1, _⟩ => rfl)

/-! ### The scores -/

/-- The transposed keys, read at an index. -/
theorem v0_at (x1 : (⟨S524288x64, .f32⟩ : BufTy).Contents (Elt Ideal)) (d : Fin 64) (k : Fin 524288) :
    val_main_v0 (F := Ideal) x1 (ix2 d k) = x1 (ix2 k d) := by
  rw [val_main_v0_apply, idx0]

/-- A score is the inner product of the query row with the key row. -/
theorem v3_at (x0 : (⟨S128x64, .f32⟩ : BufTy).Contents (Elt Ideal)) (x1 : (⟨S524288x64, .f32⟩ : BufTy).Contents (Elt Ideal))
    (b : Fin 128) (k : Fin 524288) :
    val_main_v3 (F := Ideal) x0 x1 (ix2 b k) = ∑ d : Fin 64, x0 (ix2 b d) * x1 (ix2 k d) := by
  rw [val_main_v3_apply, val_main_v2_apply, val_main_cst_apply, val_main_v1_apply]
  simp only [Ideal.mulf_def, Ideal.ofBits_def, IdealReal.ofBits_one, mul_one]
  exact Finset.sum_congr rfl fun d _ => by rw [lidx1, ridx1, v0_at]

/-! ### The row maximum -/

theorem reduces_row : S128x524288.Reduces [1] S128 := by decide

/-- The row index with the column put back. -/
theorem lift_row (b : Fin 128) (k : Fin (S128x524288.size 1)) :
    reduces_row.lift (ix1 b) k = ix2 b (⟨k.val, k.isLt⟩ : Fin 524288) := by
  funext c; apply Fin.ext
  fin_cases c <;> rfl

/-- The reference's maximum over a row is the maximum, from the bottom element, of the row's scores. -/
theorem v4_at (x0 : (⟨S128x64, .f32⟩ : BufTy).Contents (Elt Ideal)) (x1 : (⟨S524288x64, .f32⟩ : BufTy).Contents (Elt Ideal))
    (b : Fin 128) :
    val_main_v4 (F := Ideal) x0 x1 (ix1 b)
      = (Finset.univ : Finset (Fin 524288)).fold max (⊥ : EReal) (fun k => val_main_v3 (F := Ideal) x0 x1 (ix2 b k)) := by
  unfold val_main_v4
  generalize val_main_v3 (F := Ideal) x0 x1 = y
  refine (Host.reduce_eq_fold_single (FloatOps.maximumf (F := Ideal) (φ := .f32)) y _ reducesTo_S128x524288_S128_d1 reduces_row h_S_ (ix1 b)).trans ?_
  rw [val_main_cst_0_apply, Ideal.ofBits_def, IdealReal.ofBits_neg_inf]
  have hf : (y ∘ reduces_row.lift (ix1 b)) = fun k : Fin 524288 => y (ix2 b k) :=
    funext fun k => congrArg y (lift_row b k)
  exact congrArg (fun f => Finset.fold max (⊥ : EReal) f (Finset.univ : Finset (Fin 524288))) hf

/-! ### Real-valued arguments -/

section real

variable (x0 : (⟨S128x64, .f32⟩ : BufTy).Contents (Elt Ideal)) (x1 x2 : (⟨S524288x64, .f32⟩ : BufTy).Contents (Elt Ideal))

/-- With real entries a score is the real inner product. -/
theorem score_coe (h0 : Recall.IsReal x0) (h1 : Recall.IsReal x1) (b : Fin 128) (k : Fin 524288) :
    val_main_v3 (F := Ideal) x0 x1 (ix2 b k) = ((Recall.rowscore x0 x1 b k.val : ℝ) : EReal) := by
  rw [v3_at]
  unfold Recall.rowscore
  rw [dif_pos k.isLt, IdealReal.coe_sum]
  refine Finset.sum_congr rfl fun d _ => ?_
  calc x0 (ix2 b d) * x1 (ix2 k d)
      = (((x0 (ix2 b d)).toReal : ℝ) : EReal) * (((x1 (ix2 k d)).toReal : ℝ) : EReal) := by
        conv_lhs => rw [h0 (ix2 b d), h1 (ix2 k d)]
    _ = _ := (EReal.coe_mul _ _).symm

/-- The row maximum, broadcast back over the row, is one real number. -/
theorem rowmax_real (h0 : Recall.IsReal x0) (h1 : Recall.IsReal x1) (b : Fin 128) :
    ∃ M : ℝ, ∀ k : Fin 524288, val_main_v8 (F := Ideal) x0 x1 (ix2 b k) = (M : EReal) := by
  obtain ⟨M, hM⟩ := IdealReal.fold_max_real (n := 524288) (by norm_num) (fun k => Recall.rowscore x0 x1 b k.val)
  refine ⟨M, fun k => ?_⟩
  rw [val_main_v8_apply, val_main_v7_apply, idx8, val_main_v6_apply, val_main_v5_apply, val_main_cst_1_apply, v4_at]
  simp only [Ideal.maximumf_def, Ideal.ofBits_def, IdealReal.ofBits_neg_inf, max_bot_left]
  rw [← hM]
  exact congrArg (fun f => Finset.fold max (⊥ : EReal) f (Finset.univ : Finset (Fin 524288)))
    (funext fun j => score_coe x0 x1 h0 h1 b j)

/-- A weight is the exponential of the score's distance to the row's reference point. -/
theorem v10_at (h0 : Recall.IsReal x0) (h1 : Recall.IsReal x1) (b : Fin 128) (M : ℝ)
    (hM : ∀ k : Fin 524288, val_main_v8 (F := Ideal) x0 x1 (ix2 b k) = (M : EReal)) (k : Fin 524288) :
    val_main_v10 (F := Ideal) x0 x1 (ix2 b k) = ((Real.exp (Recall.rowscore x0 x1 b k.val - M) : ℝ) : EReal) := by
  rw [val_main_v10_apply, val_main_v9_apply, hM k, score_coe x0 x1 h0 h1 b k]
  simp only [Ideal.hostUnary_exp_def, Ideal.subf_def]
  rw [← EReal.coe_sub, Ideal.exp_coe]

/-- The denominator, broadcast back over the row, is the real sum of the weights. -/
theorem v13_at (h0 : Recall.IsReal x0) (h1 : Recall.IsReal x1) (b : Fin 128) (M : ℝ)
    (hM : ∀ k : Fin 524288, val_main_v8 (F := Ideal) x0 x1 (ix2 b k) = (M : EReal)) (k : Fin 524288) :
    val_main_v13 (F := Ideal) x0 x1 (ix2 b k)
      = ((∑ j : Fin 524288, Real.exp (Recall.rowscore x0 x1 b j.val - M) : ℝ) : EReal) := by
  rw [val_main_v13_apply, val_main_v12_apply, idx13, val_main_v11_apply, val_main_cst_2_apply]
  simp only [Ideal.ofBits_def, Ideal.ofBits_zero_f32, zero_add]
  rw [IdealReal.coe_sum]
  exact Finset.sum_congr rfl fun j _ => by rw [idx11, v10_at x0 x1 h0 h1 b M hM j]

/-- A normalised weight is the real quotient. -/
theorem v14_at (h0 : Recall.IsReal x0) (h1 : Recall.IsReal x1) (b : Fin 128) (M : ℝ)
    (hM : ∀ k : Fin 524288, val_main_v8 (F := Ideal) x0 x1 (ix2 b k) = (M : EReal)) (k : Fin 524288) :
    val_main_v14 (F := Ideal) x0 x1 (ix2 b k)
      = ((Real.exp (Recall.rowscore x0 x1 b k.val - M)
          / ∑ j : Fin 524288, Real.exp (Recall.rowscore x0 x1 b j.val - M) : ℝ) : EReal) := by
  rw [val_main_v14_apply, v10_at x0 x1 h0 h1 b M hM k, v13_at x0 x1 h0 h1 b M hM k]
  simp only [Ideal.hostDivf_def]
  exact IdealReal.div_coe_coe _ _
    (ne_of_gt (Finset.sum_pos (fun j _ => Real.exp_pos _) ⟨⟨0, by norm_num⟩, Finset.mem_univ _⟩))

end real

/-- The reference's result, as a function of real-valued arguments, is the recalled array. -/
theorem ref_is_G (x0 : (⟨S128x64, .f32⟩ : BufTy).Contents (Elt Ideal)) (x1 x2 : (⟨S524288x64, .f32⟩ : BufTy).Contents (Elt Ideal))
    (h0 : Recall.IsReal x0) (h1 : Recall.IsReal x1) (h2 : Recall.IsReal x2) :
    val_main_v15 (F := Ideal) x0 x1 x2 = Recall.G x0 x1 x2 := by
  funext i
  obtain ⟨b, d, rfl⟩ : ∃ (b : Fin 128) (d : Fin 64), i = ix2 b d := ⟨i 0, i 1, eq_ix2 i⟩
  rw [Recall.G_ix2, val_main_v15_apply]
  obtain ⟨M, hM⟩ := rowmax_real x0 x1 h0 h1 b
  have key : ∀ k : Fin 524288,
      val_main_v14 (F := Ideal) x0 x1 (lidx_main_v15 (ix2 b d) k) * x2 (ridx_main_v15 (ix2 b d) k)
        = (((Real.exp (Recall.rowscore x0 x1 b k.val - M)
            / ∑ j : Fin 524288, Real.exp (Recall.rowscore x0 x1 b j.val - M)) * Recall.rowval x2 d k.val : ℝ) : EReal) := by
    intro k
    rw [lidx15, ridx15, v14_at x0 x1 h0 h1 b M hM k, EReal.coe_mul]
    unfold Recall.rowval
    rw [dif_pos k.isLt]
    exact congrArg _ (h2 (ix2 k d))
  rw [Finset.sum_congr rfl fun k _ => key k, ← IdealReal.coe_sum]
  unfold Recall.recall
  exact congrArg _ (Softmax.normalised_sum (Recall.rowscore x0 x1 b) (Recall.rowval x2 d) M 524288 (by norm_num))

end Cert.ReferenceIdeal.RefValue

end
-- ==== Proof.Blocks.lean ====
/-
  The blocks a grid point works on, read at an index of the whole arrays.

  The keys and values reach the kernel transposed (64 × 524288): column `n` of the transposed array is memory row
  `n`.  Point `t` stages the columns `t * 32768 … t * 32768 + 32767` of both, and the whole query array.  So the
  block entries are: query `(b, d)`; transposed-key block `(d, jj)` = key `(t * 32768 + jj, d)`; the same for
  the values.
-/
import proofs.«110733_g83365315215904_cont_9to1c4b_190_33_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The memory row a block column stands for. -/
abbrev memRow (t : Fin cfg0.N) (jj : Fin 32768) : Fin 524288 :=
  ⟨t.val * 32768 + jj.val, by have := t.isLt; have h16 : cfg0.N = 16 := N_0; have := jj.isLt; omega⟩

/-- The launch-time arrays, at their literal types. -/
abbrev xarr (c : Dev nD) : Vec F S128x64 .f32 := m ((c : Thread nD τ).loc main_arg0)
abbrev karr (c : Dev nD) : Vec F S524288x64 .f32 := m ((c : Thread nD τ).loc main_arg1)
abbrev varr (c : Dev nD) : Vec F S524288x64 .f32 := m ((c : Thread nD τ).loc main_arg2)

/-- The blocks of a point, at their literal types. -/
abbrev xblk (c : Dev nD) (t : Fin cfg0.N) : Vec F S128x64 .f32 := iblk m c 0 t
abbrev kblk (c : Dev nD) (t : Fin cfg0.N) : Vec F S64x32768 .f32 := iblk m c 1 t
abbrev vblk (c : Dev nD) (t : Fin cfg0.N) : Vec F S64x32768 .f32 := iblk m c 2 t

/-- The region finds the transposed keys in `main_v0` … -/
theorem V_keysT (c : Dev nD) : (V m c main_v0 : Vec F S64x524288 .f32)
    = transpose S64x524288 [1, 0] (karr m c) transposes_S524288x64_S64x524288_1_0 := by
  dsimp only [V, hostOps0]; after_results

/-- … and the transposed values in `main_v1`. -/
theorem V_valsT (c : Dev nD) : (V m c main_v1 : Vec F S64x524288 .f32)
    = transpose S64x524288 [1, 0] (varr m c) transposes_S524288x64_S64x524288_1_0 := by
  dsimp only [V, hostOps0]; after_results

/-- A transposed array at `(d, n)` is the array at `(n, d)`. -/
theorem transposed_apply (a : Vec F S524288x64 .f32) (d : Fin 64) (n : Fin 524288) :
    transpose S64x524288 [1, 0] a transposes_S524288x64_S64x524288_1_0 (ix2 d n) = a (ix2 n d) :=
  transpose_apply [1, 0] a transposes_S524288x64_S64x524288_1_0 (ix2 d n) (ix2 n d) (fun b => match b with
    | ⟨0, _⟩ => rfl
    | ⟨1, _⟩ => rfl)

/-- The index maps, decided over the sixteen points: the query window stays at block (0, 0); the key and value
    windows are at block (0, t). -/
theorem idx_facts0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx_facts1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx_facts2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- The query block is the whole query array. -/
theorem xblk_apply (c : Dev nD) (t : Fin cfg0.N) (b : Fin 128) (d : Fin 64) :
    xblk m c t (ix2 b d) = xarr m c (ix2 b d) := by
  unfold xblk iblk
  rw [View.read_apply]
  show (V m c main_arg0 : Vec F S128x64 .f32) (((cfg0.win 0).blk t).view.emb (ix2 b d)) = _
  rw [V_main_arg0]
  refine congrArg _ (funext fun a => Fin.ext ?_)
  have hi := idx_facts0 t
  match a with
  | ⟨0, _⟩ =>
    show win0_0.index t (0 : Fin 2) * 128 + 1 * b.val = b.val
    rw [hi.1]; omega
  | ⟨1, _⟩ =>
    show win0_0.index t (1 : Fin 2) * 64 + 1 * d.val = d.val
    rw [hi.2]; omega

/-- The key block's column `jj` at point `t` is memory row `t * 32768 + jj`. -/
theorem kblk_apply (c : Dev nD) (t : Fin cfg0.N) (d : Fin 64) (jj : Fin 32768) :
    kblk m c t (ix2 d jj) = karr m c (ix2 (memRow t jj) d) := by
  unfold kblk iblk
  rw [View.read_apply]
  show (V m c main_v0 : Vec F S64x524288 .f32) (((cfg0.win 1).blk t).view.emb (ix2 d jj)) = _
  rw [← transposed_apply (karr m c) d (memRow t jj), ← V_keysT]
  refine congrArg _ (funext fun a => Fin.ext ?_)
  have hi := idx_facts1 t
  match a with
  | ⟨0, _⟩ =>
    show win0_1.index t (0 : Fin 2) * 64 + 1 * d.val = d.val
    rw [hi.1]; omega
  | ⟨1, _⟩ =>
    show win0_1.index t (1 : Fin 2) * 32768 + 1 * jj.val = t.val * 32768 + jj.val
    rw [hi.2]; omega

/-- The value block's column `jj` at point `t` is memory row `t * 32768 + jj`. -/
theorem vblk_apply (c : Dev nD) (t : Fin cfg0.N) (d : Fin 64) (jj : Fin 32768) :
    vblk m c t (ix2 d jj) = varr m c (ix2 (memRow t jj) d) := by
  unfold vblk iblk
  rw [View.read_apply]
  show (V m c main_v1 : Vec F S64x524288 .f32) (((cfg0.win 2).blk t).view.emb (ix2 d jj)) = _
  rw [← transposed_apply (varr m c) d (memRow t jj), ← V_valsT]
  refine congrArg _ (funext fun a => Fin.ext ?_)
  have hi := idx_facts2 t
  match a with
  | ⟨0, _⟩ =>
    show win0_2.index t (0 : Fin 2) * 64 + 1 * d.val = d.val
    rw [hi.1]; omega
  | ⟨1, _⟩ =>
    show win0_2.index t (1 : Fin 2) * 32768 + 1 * jj.val = t.val * 32768 + jj.val
    rw [hi.2]; omega

end Cert.KernelIdeal.Blocks

end
-- ==== Proof.Payloads.lean ====
/-
  The kernel body's arithmetic at the ideal instance, read at an index.

  At a grid point the body holds the query block `x0` (128 × 64), a block `kb` of the transposed keys
  (64 × 32768), a block `vb` of the transposed values (64 × 32768) and the three carried arrays: the running
  reference point `m0` (128 × 128, the lanes of a row equal), the running partition sum `l0` (128 × 128) and
  the running weighted sum `a0` (128 × 64).  Each lemma reads one named value of the body at an explicit index.
-/
import proofs.«110733_g83365315215904_cont_9to1c4b_190_33_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The block of scores: query row `b` against the block's column `jj`. -/
def sblk (x0 : Vec Ideal S128x64 .f32) (kb : Vec Ideal S64x32768 .f32) (b : Fin 128) (jj : Fin 32768) : EReal :=
  ∑ d : Fin 64, x0 (ix2 b d) * kb (ix2 d jj)

/-- The block's row maximum (from `-∞`). -/
def bmax (x0 : Vec Ideal S128x64 .f32) (kb : Vec Ideal S64x32768 .f32) (b : Fin 128) : EReal :=
  (Finset.univ : Finset (Fin 32768)).fold max (⊥ : EReal) (fun jj => sblk x0 kb b jj)

/-! # What the proofs below read the body's operations by -/

section Aux

variable {α : Type}

/-! ## Three layout operations read at an index given by coordinates -/

/-- A vector cast to a column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first column of a matrix, cut out as a column, reads, at `(p, u)`, the matrix at `(p, 0)`. -/
theorem sliceCol0_apply {a b : ℕ} (X : (⟨2, ![a, b + 1]⟩ : Shape).Idx → α)
    (h : (⟨2, ![a, b + 1]⟩ : Shape).Slices ![0, 0] ⟨2, ![a, 1]⟩) (p : Fin a) (u : Fin 1) :
    extractStridedSlice ⟨2, ![a, 1]⟩ ![0, 0] X h (ix2 p u) = X (ix2 p (0 : Fin (b + 1))) :=
  slice2_axis1_apply 0 X h p u 0 (by have := u.isLt; show 0 = 0 + u.val; omega)

/-- Lane 0 of a 128-lane array, spread over the columns of a wider or narrower one: at `(p, c)` the array at `(p, 0)`. -/
theorem lane0_spread_apply {n : ℕ} (X : S128x128.Idx → α) (h : S128x1.Broadcasts ⟨2, ![128, n]⟩) (p : Fin 128) (c : Fin n) :
    broadcastTo ⟨2, ![128, n]⟩ (extractStridedSlice S128x1 ![0, 0] X slices_S128x128_o0_0_S128x1) h (ix2 p c)
      = X (ix2 p (0 : Fin 128)) :=
  (broadcastTo_a1_ab_apply _ h p c).trans (sliceCol0_apply (b := 127) X slices_S128x128_o0_0_S128x1 p 0)

/-- A per-row value made a column and spread over 128 lanes: at `(p, lane)` the value of row `p`. -/
theorem row_spread_apply (v : S128.Idx → α) (p lane : Fin 128) :
    broadcastTo S128x128 (shapeCast S128x1 v shapeCasts_S128_S128x1) broadcasts_S128x1_S128x128 (ix2 p lane) = v (ix1 p) :=
  (broadcastTo_a1_ab_apply _ broadcasts_S128x1_S128x128 p lane).trans (shapeCast_a_a1_apply v shapeCasts_S128_S128x1 p 0)

/-! ## The first matrix product: rows of the query block against columns of the key block -/

theorem lhs_dot1_0 (i : S128x32768.Idx) (q : dot_S128x64_S64x32768_S128x32768_1_0_0_1_n_n.contr.Idx) :
    (dot_S128x64_S64x32768_S128x32768_1_0_0_1_n_n.lhsIdx i q 0).val = (i 0).val := by
  unfold DotDims.lhsIdx
  rw [dif_neg (show ¬(0 : Fin S128x64.rank) ∈ dot_S128x64_S64x32768_S128x32768_1_0_0_1_n_n.lhsBatch by decide), dif_pos (show (0 : Fin S128x64.rank) ∈ dot_S128x64_S64x32768_S128x32768_1_0_0_1_n_n.lhsNonContracting by decide)]
  rfl
theorem lhs_dot1_1 (i : S128x32768.Idx) (q : dot_S128x64_S64x32768_S128x32768_1_0_0_1_n_n.contr.Idx) :
    (dot_S128x64_S64x32768_S128x32768_1_0_0_1_n_n.lhsIdx i q 1).val = (q ⟨0, by decide⟩).val :=
  dot_S128x64_S64x32768_S128x32768_1_0_0_1_n_n.lhsIdx_val_of_single rfl i q
theorem rhs_dot1_0 (i : S128x32768.Idx) (q : dot_S128x64_S64x32768_S128x32768_1_0_0_1_n_n.contr.Idx) :
    (dot_S128x64_S64x32768_S128x32768_1_0_0_1_n_n.rhsIdx i q 0).val = (q ⟨0, by decide⟩).val :=
  dot_S128x64_S64x32768_S128x32768_1_0_0_1_n_n.rhsIdx_val_of_single rfl i q
theorem rhs_dot1_1 (i : S128x32768.Idx) (q : dot_S128x64_S64x32768_S128x32768_1_0_0_1_n_n.contr.Idx) :
    (dot_S128x64_S64x32768_S128x32768_1_0_0_1_n_n.rhsIdx i q 1).val = (i 1).val := by
  unfold DotDims.rhsIdx
  rw [dif_neg (show ¬(1 : Fin S64x32768.rank) ∈ dot_S128x64_S64x32768_S128x32768_1_0_0_1_n_n.rhsBatch by decide), dif_pos (show (1 : Fin S64x32768.rank) ∈ dot_S128x64_S64x32768_S128x32768_1_0_0_1_n_n.rhsNonContracting by decide)]
  rfl

/-- The product into the zero splat, read at `(b, jj)`: the sum over the 64 contracted coordinates. -/
theorem matmul1_apply (L : FVec Ideal S128x64 .bf16) (R : FVec Ideal S64x32768 .bf16) (b : Fin 128) (jj : Fin 32768) :
    matmul dot_S128x64_S64x32768_S128x32768_1_0_0_1_n_n none L R (constant S128x32768 .f32 0x00000000#32) (ix2 b jj)
      = ∑ d : Fin 64, L (ix2 b d) * R (ix2 d jj) := by
  simp only [matmul]
  rw [Ideal.matmul_constant_zero_apply, ← Equiv.sum_comp (ValueIdx.contrEquiv1 dot_S128x64_S64x32768_S128x32768_1_0_0_1_n_n 64 rfl rfl).symm]
  refine Finset.sum_congr rfl fun k _ => ?_
  have hk := ValueIdx.contrEquiv1_symm_val dot_S128x64_S64x32768_S128x32768_1_0_0_1_n_n 64 rfl rfl k
  have el : dot_S128x64_S64x32768_S128x32768_1_0_0_1_n_n.lhsIdx (ix2 b jj) ((ValueIdx.contrEquiv1 dot_S128x64_S64x32768_S128x32768_1_0_0_1_n_n 64 rfl rfl).symm k) = ix2 b k := funext fun a => Fin.ext (by
    match a with
    | ⟨0, _⟩ => exact lhs_dot1_0 _ _
    | ⟨1, _⟩ => exact (lhs_dot1_1 _ _).trans hk)
  have er : dot_S128x64_S64x32768_S128x32768_1_0_0_1_n_n.rhsIdx (ix2 b jj) ((ValueIdx.contrEquiv1 dot_S128x64_S64x32768_S128x32768_1_0_0_1_n_n 64 rfl rfl).symm k) = ix2 k jj := funext fun a => Fin.ext (by
    match a with
    | ⟨0, _⟩ => exact (rhs_dot1_0 _ _).trans hk
    | ⟨1, _⟩ => exact rhs_dot1_1 _ _)
  rw [el, er]

/-! ## The second matrix product: both operands contracted over the block's columns -/

theorem lhs_dot2_0 (i : S128x64.Idx) (q : dot_S128x32768_S64x32768_S128x64_1_1_0_0_n_n.contr.Idx) :
    (dot_S128x32768_S64x32768_S128x64_1_1_0_0_n_n.lhsIdx i q 0).val = (i 0).val := by
  unfold DotDims.lhsIdx
  rw [dif_neg (show ¬(0 : Fin S128x32768.rank) ∈ dot_S128x32768_S64x32768_S128x64_1_1_0_0_n_n.lhsBatch by decide), dif_pos (show (0 : Fin S128x32768.rank) ∈ dot_S128x32768_S64x32768_S128x64_1_1_0_0_n_n.lhsNonContracting by decide)]
  rfl
theorem lhs_dot2_1 (i : S128x64.Idx) (q : dot_S128x32768_S64x32768_S128x64_1_1_0_0_n_n.contr.Idx) :
    (dot_S128x32768_S64x32768_S128x64_1_1_0_0_n_n.lhsIdx i q 1).val = (q ⟨0, by decide⟩).val :=
  dot_S128x32768_S64x32768_S128x64_1_1_0_0_n_n.lhsIdx_val_of_single rfl i q
theorem rhs_dot2_0 (i : S128x64.Idx) (q : dot_S128x32768_S64x32768_S128x64_1_1_0_0_n_n.contr.Idx) :
    (dot_S128x32768_S64x32768_S128x64_1_1_0_0_n_n.rhsIdx i q 0).val = (i 1).val := by
  unfold DotDims.rhsIdx
  rw [dif_neg (show ¬(0 : Fin S64x32768.rank) ∈ dot_S128x32768_S64x32768_S128x64_1_1_0_0_n_n.rhsBatch by decide), dif_pos (show (0 : Fin S64x32768.rank) ∈ dot_S128x32768_S64x32768_S128x64_1_1_0_0_n_n.rhsNonContracting by decide)]
  rfl
theorem rhs_dot2_1 (i : S128x64.Idx) (q : dot_S128x32768_S64x32768_S128x64_1_1_0_0_n_n.contr.Idx) :
    (dot_S128x32768_S64x32768_S128x64_1_1_0_0_n_n.rhsIdx i q 1).val = (q ⟨0, by decide⟩).val :=
  dot_S128x32768_S64x32768_S128x64_1_1_0_0_n_n.rhsIdx_val_of_single rfl i q

/-- The product into the zero splat, read at `(b, d)`: the sum over the 32768 contracted coordinates. -/
theorem matmul2_apply (L : FVec Ideal S128x32768 .bf16) (R : FVec Ideal S64x32768 .bf16) (b : Fin 128) (d : Fin 64) :
    matmul dot_S128x32768_S64x32768_S128x64_1_1_0_0_n_n none L R (constant S128x64 .f32 0x00000000#32) (ix2 b d)
      = ∑ jj : Fin 32768, L (ix2 b jj) * R (ix2 d jj) := by
  simp only [matmul]
  rw [Ideal.matmul_constant_zero_apply, ← Equiv.sum_comp (ValueIdx.contrEquiv1 dot_S128x32768_S64x32768_S128x64_1_1_0_0_n_n 32768 rfl rfl).symm]
  refine Finset.sum_congr rfl fun k _ => ?_
  have hk := ValueIdx.contrEquiv1_symm_val dot_S128x32768_S64x32768_S128x64_1_1_0_0_n_n 32768 rfl rfl k
  have el : dot_S128x32768_S64x32768_S128x64_1_1_0_0_n_n.lhsIdx (ix2 b d) ((ValueIdx.contrEquiv1 dot_S128x32768_S64x32768_S128x64_1_1_0_0_n_n 32768 rfl rfl).symm k) = ix2 b k := funext fun a => Fin.ext (by
    match a with
    | ⟨0, _⟩ => exact lhs_dot2_0 _ _
    | ⟨1, _⟩ => exact (lhs_dot2_1 _ _).trans hk)
  have er : dot_S128x32768_S64x32768_S128x64_1_1_0_0_n_n.rhsIdx (ix2 b d) ((ValueIdx.contrEquiv1 dot_S128x32768_S64x32768_S128x64_1_1_0_0_n_n 32768 rfl rfl).symm k) = ix2 d k := funext fun a => Fin.ext (by
    match a with
    | ⟨0, _⟩ => exact rhs_dot2_0 _ _
    | ⟨1, _⟩ => exact (rhs_dot2_1 _ _).trans hk)
  rw [el, er]

/-! ## The two reductions over the block's columns -/

/-- The pattern `0xFF800000` denotes `-∞`. -/
theorem negInf_f32 : Ideal.ofBits .f32 0xFF800000#32 = (⊥ : EReal) := by
  simp [Ideal.ofBits, Ideal.ieee]

/-- The reduced index `b` with the column `jj` put back is `(b, jj)`. -/
theorem lift_row (b : Fin 128) (jj : Fin 32768) :
    reduces_S128x32768_S128.lift (ix1 b) jj = ix2 b jj :=
  funext fun a => Fin.ext (by match a with | ⟨0, _⟩ => rfl | ⟨1, _⟩ => rfl)

/-- The maximum over the columns, from `-∞`. -/
theorem rowMax_apply (src : FVec Ideal S128x32768 .f32) (b : Fin 128) :
    multiReduction (F := Ideal) .maximumf [1] S128 src 0xFF800000#32 reduces_S128x32768_S128 (.inl rfl) rfl (ix1 b)
      = (Finset.univ : Finset (Fin 32768)).fold max (⊥ : EReal) (fun jj => src (ix2 b jj)) := by
  refine (Ideal.multiReduction_maximumf_single src 0xFF800000#32 reduces_S128x32768_S128 (.inl rfl) rfl (ix1 b)).trans ?_
  show (Finset.univ : Finset (Fin 32768)).fold max (Ideal.ofBits .f32 0xFF800000#32) (src ∘ reduces_S128x32768_S128.lift (ix1 b)) = _
  rw [negInf_f32]
  exact congrArg (fun f => (Finset.univ : Finset (Fin 32768)).fold max (⊥ : EReal) f)
    (funext fun jj => congrArg src (lift_row b jj))

/-- The sum over the columns. -/
theorem rowSum_apply (src : FVec Ideal S128x32768 .f32) (b : Fin 128) :
    multiReduction (F := Ideal) .add [1] S128 src 0x00000000#32 reduces_S128x32768_S128 (.inl rfl) rfl (ix1 b)
      = ∑ jj : Fin 32768, src (ix2 b jj) := by
  refine (Ideal.multiReduction_add_single src 0x00000000#32 reduces_S128x32768_S128 (.inl rfl) rfl (ix1 b)).trans ?_
  exact Finset.sum_congr rfl fun jj _ => congrArg src (lift_row b jj)

end Aux

variable (x0 : Vec Ideal S128x64 .f32) (kb vb : Vec Ideal S64x32768 .f32)
  (m0 l0 : Vec Ideal S128x128 .f32) (a0 : Vec Ideal S128x64 .f32)

/-- The scores: a matrix product into a zero accumulator is the plain sum over the contracted axis. -/
theorem pay6_apply (b : Fin 128) (jj : Fin 32768) :
    k0_pay6 (F := Ideal) x0 kb (ix2 b jj) = sblk x0 kb b jj := by
  unfold k0_pay6 sblk
  refine (matmul1_apply _ _ b jj).trans ?_
  refine Finset.sum_congr rfl fun d _ => ?_
  show x0 (ix2 b d) * shapeCast S64x32768 kb shapeCasts_S64x32768_S64x32768 (ix2 d jj) = _
  rw [shapeCast_self]

/-- The new reference point: the old one against the block's row maximum, in every lane. -/
theorem pay7_apply (b lane : Fin 128) :
    k0_pay7 (F := Ideal) x0 kb m0 (ix2 b lane) = max (m0 (ix2 b lane)) (bmax x0 kb b) := by
  unfold k0_pay7 bmax
  refine congrArg (max (m0 (ix2 b lane))) ?_
  refine (row_spread_apply _ b lane).trans ?_
  refine (rowMax_apply _ b).trans ?_
  exact congrArg (fun f => (Finset.univ : Finset (Fin 32768)).fold max (⊥ : EReal) f)
    (funext fun jj => pay6_apply x0 kb b jj)

/-- The rescaling factor of what was accumulated so far. -/
theorem pay8_apply (b lane : Fin 128) :
    k0_pay8 (F := Ideal) x0 kb m0 (ix2 b lane)
      = Ideal.exp (m0 (ix2 b lane) - max (m0 (ix2 b lane)) (bmax x0 kb b)) := by
  show Ideal.exp (m0 (ix2 b lane) - k0_pay7 (F := Ideal) x0 kb m0 (ix2 b lane)) = _
  rw [pay7_apply]

/-- The block's weights at the new reference point (read off lane 0 of the reference array). -/
theorem pay9_apply (b : Fin 128) (jj : Fin 32768) :
    k0_pay9 (F := Ideal) x0 kb m0 (ix2 b jj)
      = Ideal.exp (sblk x0 kb b jj - max (m0 (ix2 b (0 : Fin 128))) (bmax x0 kb b)) := by
  show Ideal.exp (k0_pay6 (F := Ideal) x0 kb (ix2 b jj)
      - broadcastTo S128x32768 (extractStridedSlice S128x1 ![0, 0] (k0_pay7 (F := Ideal) x0 kb m0) slices_S128x128_o0_0_S128x1)
          broadcasts_S128x1_S128x32768 (ix2 b jj)) = _
  rw [pay6_apply, lane0_spread_apply, pay7_apply]

/-- The new partition sum: the old one rescaled plus the block's weights summed. -/
theorem pay10_apply (b lane : Fin 128) :
    k0_pay10 (F := Ideal) x0 kb m0 l0 (ix2 b lane)
      = l0 (ix2 b lane) * k0_pay8 (F := Ideal) x0 kb m0 (ix2 b lane)
        + ∑ jj : Fin 32768, k0_pay9 (F := Ideal) x0 kb m0 (ix2 b jj) := by
  unfold k0_pay10
  refine (congrFun (shapeCast_self _ shapeCasts_S128x128_S128x128) (ix2 b lane)).trans ?_
  refine congrArg (l0 (ix2 b lane) * k0_pay8 (F := Ideal) x0 kb m0 (ix2 b lane) + ·) ?_
  refine (row_spread_apply _ b lane).trans ?_
  exact rowSum_apply _ b

/-- The stored reference point is the new one. -/
theorem pay11_apply (b lane : Fin 128) :
    k0_pay11 (F := Ideal) x0 kb m0 (ix2 b lane) = k0_pay7 (F := Ideal) x0 kb m0 (ix2 b lane) :=
  congrFun (shapeCast_self (k0_pay7 (F := Ideal) x0 kb m0) shapeCasts_S128x128_S128x128) (ix2 b lane)

/-- A change of float format is the identity. -/
theorem pay12_apply (b : Fin 128) (jj : Fin 32768) :
    k0_pay12 (F := Ideal) x0 kb m0 (ix2 b jj) = k0_pay9 (F := Ideal) x0 kb m0 (ix2 b jj) := rfl

theorem pay13_apply (d : Fin 64) (jj : Fin 32768) :
    k0_pay13 (F := Ideal) vb (ix2 d jj) = vb (ix2 d jj) :=
  congrFun (shapeCast_self vb shapeCasts_S64x32768_S64x32768) (ix2 d jj)

/-- The new weighted sum: the old one rescaled (by lane 0 of the factor) plus the block's weights against the
    block's values, contracted over the block's columns. -/
theorem pay1_apply (v15 : FVec Ideal S128x128 .f32) (v32 : FVec Ideal S128x32768 .bf16) (v35 : FVec Ideal S64x32768 .bf16)
    (b : Fin 128) (d : Fin 64) :
    k0_pay1 (F := Ideal) v15 v32 v35 (constant S128x64 .f32 0x00000000#32) a0 (ix2 b d)
      = a0 (ix2 b d) * v15 (ix2 b (0 : Fin 128)) + ∑ jj : Fin 32768, v32 (ix2 b jj) * v35 (ix2 d jj) := by
  unfold k0_pay1
  refine (congrFun (shapeCast_self _ shapeCasts_S128x64_S128x64) (ix2 b d)).trans ?_
  show a0 (ix2 b d) * broadcastTo S128x64 (extractStridedSlice S128x1 ![0, 0] v15 slices_S128x128_o0_0_S128x1)
        broadcasts_S128x1_S128x64 (ix2 b d)
      + matmul dot_S128x32768_S64x32768_S128x64_1_1_0_0_n_n none v32 v35 (constant S128x64 .f32 0x00000000#32) (ix2 b d) = _
  rw [lane0_spread_apply, matmul2_apply]

/-- The result: the weighted sum over lane 0 of the partition sum. -/
theorem pay2_apply (acc : Vec Ideal S128x64 .f32) (l : Vec Ideal S128x128 .f32) (b : Fin 128) (d : Fin 64) :
    k0_pay2 (F := Ideal) acc l (ix2 b d) = Ideal.div (acc (ix2 b d)) (l (ix2 b (0 : Fin 128))) := by
  show Ideal.div (acc (ix2 b d)) (broadcastTo S128x64 (extractStridedSlice S128x1 ![0, 0] l slices_S128x128_o0_0_S128x1)
        broadcasts_S128x1_S128x64 (ix2 b d)) = _
  rw [lane0_spread_apply]

/-- The three resets: `-∞`, zero, zero. -/
theorem pay3_apply (i : S128x128.Idx) : (k0_pay3 (F := Ideal)) i = (⊥ : EReal) := by
  unfold k0_pay3
  refine (congrFun (shapeCast_self _ shapeCasts_S128x128_S128x128) i).trans ?_
  exact negInf_f32

theorem pay4_apply (i : S128x128.Idx) : (k0_pay4 (F := Ideal)) i = (0 : EReal) := by
  unfold k0_pay4
  refine (congrFun (shapeCast_self _ shapeCasts_S128x128_S128x128) i).trans ?_
  exact Ideal.ofBits_zero_f32

theorem pay5_apply (i : S128x64.Idx) : (k0_pay5 (F := Ideal)) i = (0 : EReal) := by
  unfold k0_pay5
  refine (congrFun (shapeCast_self _ shapeCasts_S128x64_S128x64) i).trans ?_
  exact Ideal.ofBits_zero_f32

end Cert.KernelIdeal.Pay

end
-- ==== Proof.Pieces.lean ====
/-
  What each control case of the body leaves in the three carried arrays and in the output block, as ONE term of
  the values it loaded — at any float instance.  At the grid's first point the body first resets the carried arrays
  (to `-∞`, zero and zero) and then updates them, so what it leaves is the update applied to the reset values; at the
  other points the update is applied to what the point before left; at the last point the output block is the
  quotient of the two updated sums.
-/
import proofs.«110733_g83365315215904_cont_9to1c4b_190_33_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

variable (c : Dev nD) (i : grid0.Coords) (arg1 : Memref sig .tc .vmem S128x64 .f32) (harg1 : arg1.IsWhole) (arg2 : Memref sig .tc .vmem S64x32768 .f32) (harg2 : arg2.IsWhole) (arg3 : Memref sig .tc .vmem S64x32768 .f32) (harg3 : arg3.IsWhole) (arg4 : Memref sig .tc .vmem S128x64 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x64 .f32) (harg7 : arg7.IsWhole)
  (x0 : Vec F S128x64 .f32) (x1 : Vec F S64x32768 .f32) (x2 : Vec F S64x32768 .f32)
  (xs0 : Vec F S128x128 .f32) (xs1 : Vec F S128x128 .f32) (xs2 : Vec F S128x64 .f32)

/-- The update of the weighted sum, from the block's loads, the reference array `r` it found and the sum `a` it found. -/
abbrev accUpd (x0 : Vec F S128x64 .f32) (x1 x2 : Vec F S64x32768 .f32) (r : Vec F S128x128 .f32) (a : Vec F S128x64 .f32) : FVec F S128x64 .f32 :=
  k0_pay1 (k0_pay8 x0 x1 r) (k0_pay12 x0 x1 r) (k0_pay13 x2) (constant S128x64 .f32 0x00000000#32) a

/-- Every store and load of the body starts at zero on both axes. -/
theorem hz : (![0, 0] : Fin 2 → Nat) = fun _ => 0 :=
  funext fun a => by match a with | ⟨0, _⟩ => rfl | ⟨1, _⟩ => rfl

/-! ## First point: reset, then update -/

theorem sout_A_0 (hc0 : cond0_0 i) (hc1 : ¬cond0_1 i) :
    sout0_A_0 c i arg1 harg1 arg2 harg2 arg3 harg3 arg4 harg4 arg5 harg5 arg6 harg6 arg7 harg7 hc0 hc1 x0 x1 x2 = k0_pay11 x0 x1 (k0_pay3 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S128x128) hz]
  simp only [View.readAt_eq_ld, harg1.read_unread, harg2.read_unread, harg3.read_unread,
    View.ld_unit_zero (S := S128x64) hz, View.ld_unit_zero (S := S64x32768) hz,
    View.readCov_unit_zero (S := S128x128) _ hz, View.readCov_unit_zero (S := S128x64) _ hz]

theorem sout_A_1 (hc0 : cond0_0 i) (hc1 : ¬cond0_1 i) :
    sout0_A_1 c i arg1 harg1 arg2 harg2 arg3 harg3 arg4 harg4 arg5 harg5 arg6 harg6 arg7 harg7 hc0 hc1 x0 x1 x2 = k0_pay10 x0 x1 (k0_pay3 (F := F)) (k0_pay4 (F := F)) := by
  unfold sout0_A_1
  rw [View.read_writes_eq_canon _ _ _ (scover0_A_1 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S128x128) hz]
  simp only [View.readAt_eq_ld, harg1.read_unread, harg2.read_unread, harg3.read_unread,
    View.ld_unit_zero (S := S128x64) hz, View.ld_unit_zero (S := S64x32768) hz,
    View.readCov_unit_zero (S := S128x128) _ hz, View.readCov_unit_zero (S := S128x64) _ hz]

theorem sout_A_2 (hc0 : cond0_0 i) (hc1 : ¬cond0_1 i) :
    sout0_A_2 c i arg1 harg1 arg2 harg2 arg3 harg3 arg4 harg4 arg5 harg5 arg6 harg6 arg7 harg7 hc0 hc1 x0 x1 x2 = accUpd x0 x1 x2 (k0_pay3 (F := F)) (k0_pay5 (F := F)) := by
  unfold sout0_A_2
  rw [View.read_writes_eq_canon _ _ _ (scover0_A_2 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S128x64) hz]
  simp only [View.readAt_eq_ld, harg1.read_unread, harg2.read_unread, harg3.read_unread,
    View.ld_unit_zero (S := S128x64) hz, View.ld_unit_zero (S := S64x32768) hz,
    View.readCov_unit_zero (S := S128x128) _ hz, View.readCov_unit_zero (S := S128x64) _ hz]

/-! ## Middle points: update what the point before left -/

theorem sout_B_0 (hc0 : ¬cond0_0 i) (hc1 : ¬cond0_1 i) :
    sout0_B_0 c i arg1 harg1 arg2 harg2 arg3 harg3 arg4 harg4 arg5 harg5 arg6 harg6 arg7 harg7 hc0 hc1 x0 x1 x2 xs0 xs1 xs2 = k0_pay11 x0 x1 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 xs0 xs1 xs2)]
  unfold kernelRun0_B
  dsimp only
  sl_unfold_words
  rw [View.canon_unit_zero (S := S128x128) hz]
  simp only [View.readAt_eq_ld, harg1.read_unread, harg2.read_unread, harg3.read_unread, harg5.read_unread, harg6.read_unread, harg7.read_unread,
    View.ld_unit_zero (S := S128x64) hz, View.ld_unit_zero (S := S64x32768) hz, View.ld_unit_zero (S := S128x128) hz]

theorem sout_B_1 (hc0 : ¬cond0_0 i) (hc1 : ¬cond0_1 i) :
    sout0_B_1 c i arg1 harg1 arg2 harg2 arg3 harg3 arg4 harg4 arg5 harg5 arg6 harg6 arg7 harg7 hc0 hc1 x0 x1 x2 xs0 xs1 xs2 = k0_pay10 x0 x1 xs0 xs1 := by
  unfold sout0_B_1
  rw [View.read_writes_eq_canon _ _ _ (scover0_B_1 c i arg1 harg1 arg2 harg2 arg3 harg3 arg4 harg4 arg5 harg5 arg6 harg6 arg7 harg7 hc0 hc1 x0 x1 x2 xs0 xs1 xs2)]
  unfold kernelRun0_B
  dsimp only
  sl_unfold_words
  rw [View.canon_unit_zero (S := S128x128) hz]
  simp only [View.readAt_eq_ld, harg1.read_unread, harg2.read_unread, harg3.read_unread, harg5.read_unread, harg6.read_unread, harg7.read_unread,
    View.ld_unit_zero (S := S128x64) hz, View.ld_unit_zero (S := S64x32768) hz, View.ld_unit_zero (S := S128x128) hz]

theorem sout_B_2 (hc0 : ¬cond0_0 i) (hc1 : ¬cond0_1 i) :
    sout0_B_2 c i arg1 harg1 arg2 harg2 arg3 harg3 arg4 harg4 arg5 harg5 arg6 harg6 arg7 harg7 hc0 hc1 x0 x1 x2 xs0 xs1 xs2 = accUpd x0 x1 x2 xs0 xs2 := by
  unfold sout0_B_2
  rw [View.read_writes_eq_canon _ _ _ (scover0_B_2 c i arg1 harg1 arg2 harg2 arg3 harg3 arg4 harg4 arg5 harg5 arg6 harg6 arg7 harg7 hc0 hc1 x0 x1 x2 xs0 xs1 xs2)]
  unfold kernelRun0_B
  dsimp only
  sl_unfold_words
  rw [View.canon_unit_zero (S := S128x64) hz]
  simp only [View.readAt_eq_ld, harg1.read_unread, harg2.read_unread, harg3.read_unread, harg5.read_unread, harg6.read_unread, harg7.read_unread,
    View.ld_unit_zero (S := S128x64) hz, View.ld_unit_zero (S := S64x32768) hz, View.ld_unit_zero (S := S128x128) hz]

/-! ## Last point: update, then the quotient into the output block -/

theorem sout_C_0 (hc0 : ¬cond0_0 i) (hc1 : cond0_1 i) :
    sout0_C_0 c i arg1 harg1 arg2 harg2 arg3 harg3 arg4 harg4 arg5 harg5 arg6 harg6 arg7 harg7 hc0 hc1 x0 x1 x2 xs0 xs1 xs2 = k0_pay11 x0 x1 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 xs0 xs1 xs2)]
  unfold kernelRun0_C
  dsimp only
  sl_unfold_words
  rw [View.canon_unit_zero (S := S128x128) hz]
  simp only [View.readAt_eq_ld, harg1.read_unread, harg2.read_unread, harg3.read_unread, harg5.read_unread, harg6.read_unread, harg7.read_unread,
    View.ld_unit_zero (S := S128x64) hz, View.ld_unit_zero (S := S64x32768) hz, View.ld_unit_zero (S := S128x128) hz]

theorem sout_C_1 (hc0 : ¬cond0_0 i) (hc1 : cond0_1 i) :
    sout0_C_1 c i arg1 harg1 arg2 harg2 arg3 harg3 arg4 harg4 arg5 harg5 arg6 harg6 arg7 harg7 hc0 hc1 x0 x1 x2 xs0 xs1 xs2 = k0_pay10 x0 x1 xs0 xs1 := by
  unfold sout0_C_1
  rw [View.read_writes_eq_canon _ _ _ (scover0_C_1 c i arg1 harg1 arg2 harg2 arg3 harg3 arg4 harg4 arg5 harg5 arg6 harg6 arg7 harg7 hc0 hc1 x0 x1 x2 xs0 xs1 xs2)]
  unfold kernelRun0_C
  dsimp only
  sl_unfold_words
  rw [View.canon_unit_zero (S := S128x128) hz]
  simp only [View.readAt_eq_ld, harg1.read_unread, harg2.read_unread, harg3.read_unread, harg5.read_unread, harg6.read_unread, harg7.read_unread,
    View.ld_unit_zero (S := S128x64) hz, View.ld_unit_zero (S := S64x32768) hz, View.ld_unit_zero (S := S128x128) hz]

theorem sout_C_2 (hc0 : ¬cond0_0 i) (hc1 : cond0_1 i) :
    sout0_C_2 c i arg1 harg1 arg2 harg2 arg3 harg3 arg4 harg4 arg5 harg5 arg6 harg6 arg7 harg7 hc0 hc1 x0 x1 x2 xs0 xs1 xs2 = accUpd x0 x1 x2 xs0 xs2 := by
  unfold sout0_C_2
  rw [View.read_writes_eq_canon _ _ _ (scover0_C_2 c i arg1 harg1 arg2 harg2 arg3 harg3 arg4 harg4 arg5 harg5 arg6 harg6 arg7 harg7 hc0 hc1 x0 x1 x2 xs0 xs1 xs2)]
  unfold kernelRun0_C
  dsimp only
  sl_unfold_words
  rw [View.canon_unit_zero (S := S128x64) hz]
  simp only [View.readAt_eq_ld, harg1.read_unread, harg2.read_unread, harg3.read_unread, harg5.read_unread, harg6.read_unread, harg7.read_unread,
    View.ld_unit_zero (S := S128x64) hz, View.ld_unit_zero (S := S64x32768) hz, View.ld_unit_zero (S := S128x128) hz]

theorem out_C_3 (hc0 : ¬cond0_0 i) (hc1 : cond0_1 i) :
    out0_C_3 c i arg1 harg1 arg2 harg2 arg3 harg3 arg4 harg4 arg5 harg5 arg6 harg6 arg7 harg7 hc0 hc1 x0 x1 x2 xs0 xs1 xs2 = k0_pay2 (accUpd x0 x1 x2 xs0 xs2) (k0_pay10 x0 x1 xs0 xs1) := by
  unfold out0_C_3
  rw [View.read_writes_eq_canon _ _ _ (cover0_C_3 c i arg1 harg1 arg2 harg2 arg3 harg3 arg4 harg4 arg5 harg5 arg6 harg6 arg7 harg7 hc0 hc1 x0 x1 x2 xs0 xs1 xs2)]
  unfold kernelRun0_C
  dsimp only
  sl_unfold_words
  rw [View.canon_unit_zero (S := S128x64) hz]
  simp only [View.readAt_eq_ld, harg1.read_unread, harg2.read_unread, harg3.read_unread, harg5.read_unread, harg6.read_unread, harg7.read_unread,
    View.ld_unit_zero (S := S128x64) hz, View.ld_unit_zero (S := S64x32768) hz, View.ld_unit_zero (S := S128x128) hz,
    View.readCov_unit_zero (S := S128x128) _ hz, View.readCov_unit_zero (S := S128x64) _ hz]

end Cert.KernelIdeal.Pieces

end
-- ==== Proof.RowStep.lean ====
/-
  One step of the online softmax on a single row, in extended reals.

  The carried state is a reference point `m`, a partition sum `l` and a weighted sum `a`.  Either it has just
  been reset (`m = -∞`, `l = a = 0`, nothing summed yet), or it is the state at some real reference point `c₀` over
  the first `n₀` scores: `l = Z s c₀ (range n₀)`, `a = W s v c₀ (range n₀)`.  The step takes the next `B` scores,
  moves the reference point to `max m (their maximum)`, rescales `l` and `a` by `exp (m - new)` and adds the block's
  weights (and weights times values) at the new reference point.  The result is the state over the first `n₀ + B`
  scores at the new reference point, which is a real number because the block is not empty.  After a reset the
  rescaling factor multiplies zeros, so its value does not matter.
-/
import proofs.«110733_g83365315215904_cont_9to1c4b_190_33_alg».proof.Proof.SoftmaxReal
import proofs.«110733_g83365315215904_cont_9to1c4b_190_33_alg».proof.Proof.IdealReal

noncomputable section

namespace RowStep

open Finset Idealize.ShloMosaic

/-- The exponential of a difference of two reals, at the ideal instance. -/
theorem exp_sub_coe (a b : ℝ) : Ideal.exp ((a : EReal) - (b : EReal)) = ((Real.exp (a - b) : ℝ) : EReal) := by
  rw [← EReal.coe_sub]; rfl

theorem row_step (s v : ℕ → ℝ) (n0 B : ℕ) (hB : 0 < B) (sb vbr : Fin B → EReal)
    (hs : ∀ jj, sb jj = ((s (n0 + jj.val) : ℝ) : EReal)) (hv : ∀ jj, vbr jj = ((v (n0 + jj.val) : ℝ) : EReal))
    (mprev lprev aprev : EReal)
    (hprev : (mprev = ⊥ ∧ lprev = 0 ∧ aprev = 0 ∧ n0 = 0) ∨
      (∃ c0 : ℝ, mprev = (c0 : EReal) ∧ lprev = ((Softmax.Z s c0 (range n0) : ℝ) : EReal)
        ∧ aprev = ((Softmax.W s v c0 (range n0) : ℝ) : EReal))) :
    ∃ c' : ℝ, max mprev ((univ : Finset (Fin B)).fold max (⊥ : EReal) sb) = (c' : EReal) ∧
      lprev * Ideal.exp (mprev - max mprev ((univ : Finset (Fin B)).fold max (⊥ : EReal) sb))
          + ∑ jj, Ideal.exp (sb jj - max mprev ((univ : Finset (Fin B)).fold max (⊥ : EReal) sb))
        = ((Softmax.Z s c' (range (n0 + B)) : ℝ) : EReal) ∧
      aprev * Ideal.exp (mprev - max mprev ((univ : Finset (Fin B)).fold max (⊥ : EReal) sb))
          + ∑ jj, Ideal.exp (sb jj - max mprev ((univ : Finset (Fin B)).fold max (⊥ : EReal) sb)) * vbr jj
        = ((Softmax.W s v c' (range (n0 + B)) : ℝ) : EReal) := by
  obtain ⟨r, hr⟩ := IdealReal.fold_max_real hB (fun jj : Fin B => s (n0 + jj.val))
  have hsb : sb = fun jj : Fin B => ((s (n0 + jj.val) : ℝ) : EReal) := funext hs
  rw [hsb, hr]
  rcases hprev with ⟨rfl, rfl, rfl, rfl⟩ | ⟨c0, rfl, rfl, rfl⟩
  · -- after a reset: the new reference point is the block's maximum
    refine ⟨r, max_eq_right bot_le, ?_, ?_⟩
    · rw [max_eq_right bot_le, zero_mul, zero_add, Nat.zero_add, Softmax.Z_range_first, IdealReal.coe_sum]
      refine Finset.sum_congr rfl fun jj _ => ?_
      rw [exp_sub_coe, Nat.zero_add]
    · rw [max_eq_right bot_le, zero_mul, zero_add, Nat.zero_add, Softmax.W_range_first, IdealReal.coe_sum]
      refine Finset.sum_congr rfl fun jj _ => ?_
      rw [exp_sub_coe, hv jj, ← EReal.coe_mul, Nat.zero_add]
  · -- a running state at the real reference point c0
    have hmax : max (c0 : EReal) (r : EReal) = ((max c0 r : ℝ) : EReal) := (EReal.coe_strictMono.monotone.map_max (a := c0) (b := r)).symm
    refine ⟨max c0 r, hmax, ?_, ?_⟩
    · rw [hmax, exp_sub_coe, ← EReal.coe_mul, Softmax.Z_range_add s c0 (max c0 r) n0 B, EReal.coe_add, IdealReal.coe_sum]
      refine congrArg _ (Finset.sum_congr rfl fun jj _ => ?_)
      rw [exp_sub_coe]
    · rw [hmax, exp_sub_coe, ← EReal.coe_mul, Softmax.W_range_add s v c0 (max c0 r) n0 B, EReal.coe_add, IdealReal.coe_sum]
      refine congrArg _ (Finset.sum_congr rfl fun jj _ => ?_)
      rw [exp_sub_coe, hv jj, ← EReal.coe_mul]

end RowStep

end
-- ==== Proof.Invariant.lean ====
/-
  What the three carried arrays hold after each grid point, and the output block at the last point.

  After point `t` the kernel has seen the memory rows below `(t + 1) * 32768`.  For every query row `b` there is a
  real reference point `cp b` such that, in every lane, the reference array holds `cp b`, the partition array holds
  `Z (score b) (cp b)` over those rows, and column `d` of the weighted array holds `W (score b) (value · d) (cp b)` over
  them.  Point 0 starts from the reset values (`-∞`, 0, 0); every other point from what the point before left.  At
  the last point all 524288 rows have been seen, and the output block is the quotient `W / Z`, which does not depend
  on the reference point: it is the recalled value.
-/
import proofs.«110733_g83365315215904_cont_9to1c4b_190_33_alg».proof.Proof.Gen.KernelIdeal.Frame
import proofs.«110733_g83365315215904_cont_9to1c4b_190_33_alg».proof.Proof.Blocks
import proofs.«110733_g83365315215904_cont_9to1c4b_190_33_alg».proof.Proof.Payloads
import proofs.«110733_g83365315215904_cont_9to1c4b_190_33_alg».proof.Proof.Pieces
import proofs.«110733_g83365315215904_cont_9to1c4b_190_33_alg».proof.Proof.RowStep
import proofs.«110733_g83365315215904_cont_9to1c4b_190_33_alg».proof.Proof.Spec

set_option maxRecDepth 16384

noncomputable section

namespace Cert.KernelIdeal.Inv

open Cert.KernelIdeal Cert.KernelIdeal.Gen Cert.KernelIdeal.Blocks Idealize.ShloMosaic Idealize.ShloMosaic.TcCoe
open Idealize.ShloMosaic.ValueIdx Idealize.SL.Sem Finset

variable (m : (ℓ : Loc nD τ sig) → Buf (Elt Ideal) ℓ) (c : Dev nD)

/-- The scores of query row `b`, by memory row. -/
abbrev sc (b : Fin 128) : ℕ → ℝ := Recall.rowscore (xarr m c) (karr m c) b
/-- Column `d` of the values, by memory row. -/
abbrev vl (d : Fin 64) : ℕ → ℝ := Recall.rowval (varr m c) d

section
variable (hx : Recall.IsReal (xarr m c)) (hk : Recall.IsReal (karr m c)) (hv : Recall.IsReal (varr m c))
include hx hk

/-- A block's score is the row score of the memory row its column stands for. -/
theorem sblk_eq (t : Fin cfg0.N) (b : Fin 128) (jj : Fin 32768) :
    Pay.sblk (xblk m c t) (kblk m c t) b jj = ((sc m c b (t.val * 32768 + jj.val) : ℝ) : EReal) := by
  have hlt : t.val * 32768 + jj.val < 524288 := (memRow t jj).isLt
  unfold Pay.sblk sc Recall.rowscore
  rw [dif_pos hlt, IdealReal.coe_sum]
  refine Finset.sum_congr rfl fun d _ => ?_
  rw [xblk_apply, kblk_apply, hx (ix2 b d), hk (ix2 (memRow t jj) d), ← EReal.coe_mul]
  rfl

end

section
variable (hv : Recall.IsReal (varr m c))
include hv

/-- A value block's entry is the value column at the memory row its column stands for. -/
theorem vblk_eq (t : Fin cfg0.N) (d : Fin 64) (jj : Fin 32768) :
    vblk m c t (ix2 d jj) = ((vl m c d (t.val * 32768 + jj.val) : ℝ) : EReal) := by
  have hlt : t.val * 32768 + jj.val < 524288 := (memRow t jj).isLt
  unfold vl Recall.rowval
  rw [dif_pos hlt, vblk_apply, hv (ix2 (memRow t jj) d)]
  rfl

end

/-- The state of the three carried arrays over the memory rows below `N`, at reference points `cp`. -/
def StateAt (N : ℕ) (ms ls : Vec Ideal S128x128 .f32) (ws : Vec Ideal S128x64 .f32) : Prop :=
  ∃ cp : Fin 128 → ℝ,
    (∀ b lane : Fin 128, ms (ix2 b lane) = ((cp b : ℝ) : EReal)) ∧
    (∀ b lane : Fin 128, ls (ix2 b lane) = ((Softmax.Z (sc m c b) (cp b) (range N) : ℝ) : EReal)) ∧
    (∀ (b : Fin 128) (d : Fin 64), ws (ix2 b d) = ((Softmax.W (sc m c b) (vl m c d) (cp b) (range N) : ℝ) : EReal))

/-- The reset state: `-∞`, zero, zero. -/
def Reset (ms ls : Vec Ideal S128x128 .f32) (ws : Vec Ideal S128x64 .f32) : Prop :=
  (∀ i, ms i = (⊥ : EReal)) ∧ (∀ i, ls i = (0 : EReal)) ∧ (∀ i, ws i = (0 : EReal))

section
variable (hx : Recall.IsReal (xarr m c)) (hk : Recall.IsReal (karr m c)) (hv : Recall.IsReal (varr m c))
include hx hk hv

/-- ONE UPDATE: from the reset state at point 0, or from the state over the rows below `t * 32768`, the body's update
    leaves the state over the rows below `(t + 1) * 32768`. -/
theorem update_state (t : Fin cfg0.N) (m0 l0 : Vec Ideal S128x128 .f32) (a0 : Vec Ideal S128x64 .f32)
    (hprev : (Reset m0 l0 a0 ∧ t.val = 0) ∨ StateAt m c (t.val * 32768) m0 l0 a0) :
    StateAt m c ((t.val + 1) * 32768)
      (k0_pay11 (F := Ideal) (xblk m c t) (kblk m c t) m0)
      (k0_pay10 (F := Ideal) (xblk m c t) (kblk m c t) m0 l0)
      (Pieces.accUpd (F := Ideal) (xblk m c t) (kblk m c t) (vblk m c t) m0 a0) := by
  have hN : (t.val + 1) * 32768 = t.val * 32768 + 32768 := by ring
  -- row by row: the new reference point, the partition sum, and every column of the weighted sum
  have key : ∀ b : Fin 128, ∃ cb : ℝ,
      max (m0 (ix2 b (0 : Fin 128))) (Pay.bmax (xblk m c t) (kblk m c t) b) = ((cb : ℝ) : EReal) ∧
      (∀ lane : Fin 128, m0 (ix2 b lane) = m0 (ix2 b (0 : Fin 128)) ∧ l0 (ix2 b lane) = l0 (ix2 b (0 : Fin 128))) ∧
      l0 (ix2 b (0 : Fin 128)) * Ideal.exp (m0 (ix2 b (0 : Fin 128)) - max (m0 (ix2 b (0 : Fin 128))) (Pay.bmax (xblk m c t) (kblk m c t) b))
          + ∑ jj : Fin 32768, Ideal.exp (Pay.sblk (xblk m c t) (kblk m c t) b jj - max (m0 (ix2 b (0 : Fin 128))) (Pay.bmax (xblk m c t) (kblk m c t) b))
        = ((Softmax.Z (sc m c b) cb (range (t.val * 32768 + 32768)) : ℝ) : EReal) ∧
      ∀ d : Fin 64,
        a0 (ix2 b d) * Ideal.exp (m0 (ix2 b (0 : Fin 128)) - max (m0 (ix2 b (0 : Fin 128))) (Pay.bmax (xblk m c t) (kblk m c t) b))
          + ∑ jj : Fin 32768, Ideal.exp (Pay.sblk (xblk m c t) (kblk m c t) b jj - max (m0 (ix2 b (0 : Fin 128))) (Pay.bmax (xblk m c t) (kblk m c t) b)) * vblk m c t (ix2 d jj)
        = ((Softmax.W (sc m c b) (vl m c d) cb (range (t.val * 32768 + 32768)) : ℝ) : EReal) := by
    intro b
    have hrow : ∀ d : Fin 64,
        (m0 (ix2 b (0 : Fin 128)) = ⊥ ∧ l0 (ix2 b (0 : Fin 128)) = 0 ∧ a0 (ix2 b d) = 0 ∧ t.val * 32768 = 0) ∨
        (∃ c0 : ℝ, m0 (ix2 b (0 : Fin 128)) = (c0 : EReal)
          ∧ l0 (ix2 b (0 : Fin 128)) = ((Softmax.Z (sc m c b) c0 (range (t.val * 32768)) : ℝ) : EReal)
          ∧ a0 (ix2 b d) = ((Softmax.W (sc m c b) (vl m c d) c0 (range (t.val * 32768)) : ℝ) : EReal)) := by
      intro d
      rcases hprev with ⟨⟨hm, hl, ha⟩, ht⟩ | ⟨cp, hm, hl, ha⟩
      · exact Or.inl ⟨hm _, hl _, ha _, by rw [ht]⟩
      · exact Or.inr ⟨cp b, hm b 0, hl b 0, ha b d⟩
    have hlanes : ∀ lane : Fin 128, m0 (ix2 b lane) = m0 (ix2 b (0 : Fin 128)) ∧ l0 (ix2 b lane) = l0 (ix2 b (0 : Fin 128)) := by
      intro lane
      rcases hprev with ⟨⟨hm, hl, _⟩, _⟩ | ⟨cp, hm, hl, _⟩
      · exact ⟨(hm _).trans (hm _).symm, (hl _).trans (hl _).symm⟩
      · exact ⟨(hm b lane).trans (hm b 0).symm, (hl b lane).trans (hl b 0).symm⟩
    obtain ⟨cb, h1, h2, _⟩ := RowStep.row_step (sc m c b) (vl m c (0 : Fin 64)) (t.val * 32768) 32768 (by norm_num)
      (fun jj => Pay.sblk (xblk m c t) (kblk m c t) b jj) (fun jj => vblk m c t (ix2 (0 : Fin 64) jj))
      (fun jj => sblk_eq m c hx hk t b jj) (fun jj => vblk_eq m c hv t 0 jj)
      (m0 (ix2 b (0 : Fin 128))) (l0 (ix2 b (0 : Fin 128))) (a0 (ix2 b (0 : Fin 64))) (hrow 0)
    refine ⟨cb, h1, hlanes, h2, fun d => ?_⟩
    obtain ⟨cd, g1, _, g3⟩ := RowStep.row_step (sc m c b) (vl m c d) (t.val * 32768) 32768 (by norm_num)
      (fun jj => Pay.sblk (xblk m c t) (kblk m c t) b jj) (fun jj => vblk m c t (ix2 d jj))
      (fun jj => sblk_eq m c hx hk t b jj) (fun jj => vblk_eq m c hv t d jj)
      (m0 (ix2 b (0 : Fin 128))) (l0 (ix2 b (0 : Fin 128))) (a0 (ix2 b d)) (hrow d)
    have hcd : cd = cb := EReal.coe_injective (g1.symm.trans h1)
    rw [hcd] at g3
    exact g3
  choose cp hcp using key
  refine ⟨cp, fun b lane => ?_, fun b lane => ?_, fun b d => ?_⟩
  · rw [Pay.pay11_apply, Pay.pay7_apply, ((hcp b).2.1 lane).1]
    exact (hcp b).1
  · rw [Pay.pay10_apply, Pay.pay8_apply, ((hcp b).2.1 lane).1, ((hcp b).2.1 lane).2, hN, ← (hcp b).2.2.1]
    refine congrArg _ (Finset.sum_congr rfl fun jj _ => ?_)
    rw [Pay.pay9_apply]
  · unfold Pieces.accUpd
    rw [Pay.pay1_apply, Pay.pay8_apply, hN, ← (hcp b).2.2.2 d]
    refine congrArg _ (Finset.sum_congr rfl fun jj _ => ?_)
    rw [Pay.pay12_apply, Pay.pay9_apply, Pay.pay13_apply]

end

section
variable (hx : Recall.IsReal (xarr m c)) (hk : Recall.IsReal (karr m c)) (hv : Recall.IsReal (varr m c))
include hx hk hv

/-- AFTER EVERY POINT the carried arrays hold the state over the memory rows seen so far: point 0 is the reset
    followed by an update, every later point an update of what the point before left. -/
theorem state_after (n : ℕ) : ∀ t : Fin cfg0.N, t.val = n →
    StateAt m c ((t.val + 1) * 32768) (outsAt0 m c t.val t.isLt).2.1 (outsAt0 m c t.val t.isLt).2.2.1
      (outsAt0 m c t.val t.isLt).2.2.2 := by
  induction n using Nat.strong_induction_on with
  | _ n ih =>
    intro t ht
    have hN : t.val < 16 := lt_of_lt_of_eq t.isLt (show cfg0.N = 16 from N_0)
    by_cases h0 : t.val % 16 = 0
    · have h1 : ¬t.val % 16 = 15 := by omega
      have ht0 : t.val = 0 := by omega
      rw [outsAt0_A m c t h0 h1]
      dsimp only
      rw [Pieces.sout_A_0, Pieces.sout_A_1, Pieces.sout_A_2]
      exact update_state m c hx hk hv t _ _ _
        (Or.inl ⟨⟨Pay.pay3_apply, Pay.pay4_apply, Pay.pay5_apply⟩, ht0⟩)
    · have hlt : t.val - 1 < cfg0.N := Nat.lt_of_le_of_lt (Nat.sub_le _ _) t.isLt
      have hprev := ih (t.val - 1) (by omega) ⟨t.val - 1, hlt⟩ rfl
      have e : (t.val - 1 + 1) * 32768 = t.val * 32768 := by
        have : t.val - 1 + 1 = t.val := by omega
        rw [this]
      dsimp only at hprev
      rw [e] at hprev
      by_cases h1 : t.val % 16 = 15
      · rw [outsAt0_C m c t h0 h1]
        dsimp only
        rw [Pieces.sout_C_0, Pieces.sout_C_1, Pieces.sout_C_2]
        exact update_state m c hx hk hv t _ _ _ (Or.inr hprev)
      · rw [outsAt0_B m c t h0 h1]
        dsimp only
        rw [Pieces.sout_B_0, Pieces.sout_B_1, Pieces.sout_B_2]
        exact update_state m c hx hk hv t _ _ _ (Or.inr hprev)

/-- AT THE LAST POINT the output block is the recalled array: the quotient of the weighted sum by the partition
    sum over all memory rows, whatever the reference point. -/
theorem out_last (t : Fin cfg0.N) (h0 : ¬t.val % 16 = 0) (h1 : t.val % 16 = 15) :
    (outsAt0 m c t.val t.isLt).1 = Recall.G (xarr m c) (karr m c) (varr m c) := by
  have hN : t.val < 16 := lt_of_lt_of_eq t.isLt (show cfg0.N = 16 from N_0)
  have ht15 : t.val = 15 := by omega
  have hlt : t.val - 1 < cfg0.N := Nat.lt_of_le_of_lt (Nat.sub_le _ _) t.isLt
  have hprev := state_after m c hx hk hv (t.val - 1) ⟨t.val - 1, hlt⟩ rfl
  have e : (t.val - 1 + 1) * 32768 = t.val * 32768 := by
    have : t.val - 1 + 1 = t.val := by omega
    rw [this]
  dsimp only at hprev
  rw [e] at hprev
  rw [outsAt0_C m c t h0 h1]
  dsimp only
  rw [Pieces.out_C_3]
  obtain ⟨cp, _, hl, ha⟩ := update_state m c hx hk hv t _ _ _ (Or.inr hprev)
  have hall : (t.val + 1) * 32768 = 524288 := by rw [ht15]
  funext i
  obtain ⟨b, d, rfl⟩ : ∃ (b : Fin 128) (d : Fin 64), i = ix2 b d := ⟨i 0, i 1, eq_ix2 i⟩
  rw [Pay.pay2_apply, ha b d, hl b (0 : Fin 128), hall, Recall.G_ix2]
  have hne : (Finset.range 524288).Nonempty := ⟨0, Finset.mem_range.mpr (by norm_num)⟩
  rw [IdealReal.div_coe_coe _ _ (ne_of_gt (Softmax.Z_pos _ _ hne))]
  unfold Recall.recall
  exact congrArg _ (Softmax.ratio_indep _ _ _ _ hne)

end

end Cert.KernelIdeal.Inv

end
-- ==== Proof.KernelValue.lean ====
/-
  The kernel's result array.  The output window has one block, the whole array; only the last grid point stores
  into it and only there is it written back.  What that point writes back is the recalled array, so the array
  ends holding it.
-/
import proofs.«110733_g83365315215904_cont_9to1c4b_190_33_alg».proof.Proof.Gen.KernelIdeal.Value
import proofs.«110733_g83365315215904_cont_9to1c4b_190_33_alg».proof.Proof.Invariant

set_option maxRecDepth 16384

noncomputable section

namespace Cert.KernelIdeal.Result

open Cert.KernelIdeal Cert.KernelIdeal.Gen Cert.KernelIdeal.Blocks Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- Only the last point writes the output block back — decided over the sixteen points. -/
theorem flush_facts : ∀ t : Fin cfg0.N, (cfg0.win 3).flush t = true → ¬t.val % 16 = 0 ∧ t.val % 16 = 15 :=
  (by decide +kernel : ∀ t : Fin grid0.N, (cfg0.win 3).flush t = true → ¬t.val % 16 = 0 ∧ t.val % 16 = 15)

/-- … and it does. -/
theorem last_flushes : (cfg0.win 3).flush t0_15 = true := by decide +kernel

/-- The output window's block index is (0, 0) at every point. -/
theorem idx_facts3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The recalled array of the launch-time arguments on core `c`. -/
abbrev result (c : Dev nD) : Vec Ideal S128x64 .f32 := Recall.G (xarr m c) (karr m c) (varr m c)

section
variable (c : Dev nD)
variable (hx : Recall.IsReal (xarr m c)) (hk : Recall.IsReal (karr m c)) (hv : Recall.IsReal (varr m c))
include hx hk hv

/-- What a writing-back point writes back is its block of the recalled array. -/
theorem flushed_eq (t : Fin cfg0.N) (hf : (cfg0.win 3).flush t = true) :
    (dats m 0 c).flushed 3 t = ((cfg0.win 3).blk t).view.read (Elt Ideal) (result m c) := by
  obtain ⟨h0, h1⟩ := flush_facts t hf
  rw [Value.flushed3 m c t, Inv.out_last m c hx hk hv t h0 h1]
  funext y
  rw [View.read_apply]
  show Recall.G (xarr m c) (karr m c) (varr m c) y
    = Recall.G (xarr m c) (karr m c) (varr m c) (((cfg0.win 3).blk t).view.emb y)
  refine congrArg _ (funext fun a => Fin.ext ?_)
  have hi := idx_facts3 t
  match a with
  | ⟨0, h⟩ =>
    show (y ⟨0, h⟩).val = win0_3.index t (0 : Fin 2) * 128 + 1 * (y ⟨0, h⟩).val
    rw [hi.1]; omega
  | ⟨1, h⟩ =>
    show (y ⟨1, h⟩).val = win0_3.index t (1 : Fin 2) * 64 + 1 * (y ⟨1, h⟩).val
    rw [hi.2]; omega

omit hx hk hv in
/-- An index of the array is in a point's block iff each coordinate is in the block's range on its axis. -/
theorem mem_blk (t : Fin cfg0.N) (i : S128x64.Idx) :
    i ∈ ((cfg0.win 3).blk t).view.set ↔ ∀ a : Fin 2, win0_3.index t a * S128x64.size a ≤ (i a).val ∧ (i a).val < win0_3.index t a * S128x64.size a + S128x64.size a := by
  show i ∈ ((View.whole main_v2).slice (win0_3.rect t)).set ↔ _
  rw [View.set_slice_whole, Rect.mem_set_unit]
  exact Iff.rfl

omit hx hk hv in
/-- The last point's block is the whole array. -/
theorem covered (i : S128x64.Idx) :
    ∃ t : Fin cfg0.N, (cfg0.win 3).flush t = true ∧ i ∈ ((cfg0.win 3).blk t).view.set := by
  refine ⟨t0_15, last_flushes, ?_⟩
  rw [mem_blk]
  have hi := idx_facts3 t0_15
  have hi0 : (i 0).val < 128 := (i 0).isLt
  have hi1 : (i 1).val < 64 := (i 1).isLt
  intro a
  match a with
  | ⟨0, _⟩ =>
    show win0_3.index t0_15 (0 : Fin 2) * 128 ≤ (i 0).val ∧ (i 0).val < win0_3.index t0_15 (0 : Fin 2) * 128 + 128
    rw [hi.1]; omega
  | ⟨1, _⟩ =>
    show win0_3.index t0_15 (1 : Fin 2) * 64 ≤ (i 1).val ∧ (i 1).val < win0_3.index t0_15 (1 : Fin 2) * 64 + 64
    rw [hi.2]; omega

/-- THE RESULT ARRAY after the run is the recalled array. -/
theorem final : (dats m 0 c).arrAt 3 cfg0.N = result m c :=
  (dats m 0 c).arrAt_eq_of_cover 3 (result m c) (fun t hf => flushed_eq m c hx hk hv t hf) covered

end

/-- The kernel's run, re-posted: the result at the recalled array, the arguments unchanged. -/
theorem run (hx : ∀ c, Recall.IsReal (xarr m c)) (hk : ∀ c, Recall.IsReal (karr m c)) (hv : ∀ c, Recall.IsReal (varr m c)) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hx c) (hk c) (hv c)), (h c).2⟩)
    (Value.run_blocks m ρ)

end Cert.KernelIdeal.Result

end
-- ==== Proof.lean ====
/- The proof of `Cert.Claim`: an online-softmax attention kernel against softmax attention over a memory bank.

   Both programs compute, for each query row `b` and value column `d`, the softmax-weighted average
   `(∑ n, exp (s b n) * v n d) / (∑ n, exp (s b n))` of the values, with scores `s b n = ⟨x b, k n⟩`
   (Proof/Spec.lean).  The reference normalises the weights `exp (s - M)` by their sum and then averages; the
   kernel streams the memory in sixteen blocks, carrying a reference point, a partition sum and a weighted sum
   that it rescales whenever the reference point moves (Proof/RowStep.lean, Proof/Invariant.lean), and divides at
   the end.  Over the reals neither depends on the reference point (Proof/SoftmaxReal.lean); the precondition makes
   every entry real (Proof/Finite.lean), which is what the rescaling and the division need. -/
import proofs.«110733_g83365315215904_cont_9to1c4b_190_33_alg».proof.Defs
import proofs.«110733_g83365315215904_cont_9to1c4b_190_33_alg».proof.Proof.Gen.Kernel
import proofs.«110733_g83365315215904_cont_9to1c4b_190_33_alg».proof.Proof.Gen.Kernel.Frame
import proofs.«110733_g83365315215904_cont_9to1c4b_190_33_alg».proof.Proof.Gen.KernelIdeal
import proofs.«110733_g83365315215904_cont_9to1c4b_190_33_alg».proof.Proof.Gen.KernelIdeal.Frame
import proofs.«110733_g83365315215904_cont_9to1c4b_190_33_alg».proof.Proof.Gen.KernelIdeal.Value
import proofs.«110733_g83365315215904_cont_9to1c4b_190_33_alg».proof.Proof.Gen.ReferenceIdeal
import proofs.«110733_g83365315215904_cont_9to1c4b_190_33_alg».proof.Proof.Gen.ReferenceIdeal.Run
import proofs.«110733_g83365315215904_cont_9to1c4b_190_33_alg».proof.Proof.Gen.ReferenceIdeal.Read
import proofs.«110733_g83365315215904_cont_9to1c4b_190_33_alg».proof.Proof.Gen.Pre_finite_inputs
import proofs.«110733_g83365315215904_cont_9to1c4b_190_33_alg».proof.Proof.Finite
import proofs.«110733_g83365315215904_cont_9to1c4b_190_33_alg».proof.Proof.RefValue
import proofs.«110733_g83365315215904_cont_9to1c4b_190_33_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a host program: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end at the recalled array of the (real-valued) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := fun c => @Cert.Pre_finite_inputs.Finite.isReal_of_pre Cert.Pre_finite_inputs.Gen.facts _ _ _ (hpre c)
  refine ⟨fun c => Cert.KernelIdeal.Result.result m c,
    Cert.KernelIdeal.Result.run m ρ (fun c => (hreal c).1) (fun c => (hreal c).2.1) (fun c => (hreal c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2]
  exact Cert.ReferenceIdeal.RefValue.ref_is_G _ _ _ (hreal c).1 (hreal c).2.1 (hreal c).2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
